-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S524288 : Shape := ⟨1, ![524288]⟩
abbrev S66x64 : Shape := ⟨2, ![66, 64]⟩
abbrev S64x128 : Shape := ⟨2, ![64, 128]⟩
abbrev S64 : Shape := ⟨1, ![64]⟩
abbrev S64x64 : Shape := ⟨2, ![64, 64]⟩
abbrev S_ : Shape := ⟨0, ![]⟩
abbrev S524288x8 : Shape := ⟨2, ![524288, 8]⟩

class Facts : Prop where
  bcast_S_S66x64 : S_.BroadcastsInDim S66x64 (![] : Fin 0 → Fin S66x64.rank)
  reducesTo_S66x64_S_d0_1 : S66x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S524288x64_S524288x8_0_55 : S524288x64.Slices ![0, 55] S524288x8
  bcast_S_S524288x8 : S_.BroadcastsInDim S524288x8 (![] : Fin 0 → Fin S524288x8.rank)
  reducesTo_S524288x8_S_d0_1 : S524288x8.ReducesTo [0, 1] S_
  bcast_S_S524288 : S_.BroadcastsInDim S524288 (![] : Fin 0 → Fin S524288.rank)
  reducesTo_S524288_S_d0 : S524288.ReducesTo [0] S_

variable [Facts]

def fn_part2 {F : FTy → Type} [FloatOps F] (main_arg1 : IVec S524288 32) (main_v33 : IVec S_ 1) : IVec S_ 1 :=
  let main_c_12 : IVec S_ 32 := constantI S_ 32 0#32
  let main_v34 : IVec S524288 32 := broadcastInDim S524288 ![] bcast_S_S524288 main_c_12
  let main_v35 : IVec S524288 1 := cmpi .sge main_arg1 main_v34
  let main_c_13 : IVec S_ 1 := constantI S_ 1 1#1
  let main_v36 : IVec S_ 1 := (fun x v => Host.reduce IntOp.andi x v reducesTo_S524288_S_d0 h_S_) main_v35 main_c_13
  let main_v37 : IVec S_ 1 := andi main_v33 main_v36
  let main_c_14 : IVec S_ 32 := constantI S_ 32 66#32
  let main_v38 : IVec S524288 32 := broadcastInDim S524288 ![] bcast_S_S524288 main_c_14
  let main_v39 : IVec S524288 1 := cmpi .slt main_arg1 main_v38
  let main_c_15 : IVec S_ 1 := constantI S_ 1 1#1
  let main_v40 : IVec S_ 1 := (fun x v => Host.reduce IntOp.andi x v reducesTo_S524288_S_d0 h_S_) main_v39 main_c_15
  let main_v41 : IVec S_ 1 := andi main_v37 main_v40
  main_v41

def fn_part1 {F : FTy → Type} [FloatOps F] (main_arg0 : IVec S524288x64 32) (main_arg1 : IVec S524288 32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S524288x8 32 := (extractStridedSlice S524288x8 ![0, 55] · slices_S524288x64_S524288x8_0_55) main_arg0
  let main_c_8 : IVec S_ 32 := constantI S_ 32 0#32
  let main_v25 : IVec S524288x8 32 := broadcastInDim S524288x8 ![] bcast_S_S524288x8 main_c_8
  let main_v26 : IVec S524288x8 1 := cmpi .sge main_v24 main_v25
  let main_c_9 : IVec S_ 1 := constantI S_ 1 1#1
  let main_v27 : IVec S_ 1 := (fun x v => Host.reduce IntOp.andi x v reducesTo_S524288x8_S_d0_1 h_S_) main_v26 main_c_9
  let main_v28 : IVec S_ 1 := andi main_v23 main_v27
  let main_v29 : IVec S524288x8 32 := (extractStridedSlice S524288x8 ![0, 55] · slices_S524288x64_S524288x8_0_55) main_arg0
  let main_c_10 : IVec S_ 32 := constantI S_ 32 66#32
  let main_v30 : IVec S524288x8 32 := broadcastInDim S524288x8 ![] bcast_S_S524288x8 main_c_10
  let main_v31 : IVec S524288x8 1 := cmpi .slt main_v29 main_v30
  let main_c_11 : IVec S_ 1 := constantI S_ 1 1#1
  let main_v32 : IVec S_ 1 := (fun x v => Host.reduce IntOp.andi x v reducesTo_S524288x8_S_d0_1 h_S_) main_v31 main_c_11
  let main_v33 : IVec S_ 1 := andi main_v28 main_v32
  fn_part2 (F := F) main_arg1 main_v33

def fn {F : FTy → Type} [FloatOps F] (main_arg0 : IVec S524288x64 32) (main_arg1 : IVec S524288 32) (main_arg2 : FVec F S66x64 .f32) (main_arg3 : FVec F S64x128 .f32) (main_arg4 : FVec F S64 .f32) (main_arg5 : FVec F S64x64 .f32) (main_arg6 : FVec F S64 .f32) : IVec S_ 1 :=
  let main_v0 : FVec F S66x64 .f32 := Host.absf main_arg2
  let main_cst : FVec F S_ .f32 := constant S_ .f32 0x7F800000#32
  let main_v1 : FVec F S66x64 .f32 := broadcastInDim S66x64 ![] bcast_S_S66x64 main_cst
  let main_v2 : IVec S66x64 1 := cmpf .olt main_v0 main_v1
  let main_c : IVec S_ 1 := constantI S_ 1 1#1
  let main_v3 : IVec S_ 1 := (fun x v => Host.reduce IntOp.andi x v reducesTo_S66x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg0 main_arg1 main_arg6 main_v13 main_v16
-- ==== Kernel.lean ====
abbrev S524288x64 : Shape := ⟨2, ![524288, 64]⟩
abbrev S524288 : Shape := ⟨1, ![524288]⟩
abbrev S66x64 : Shape := ⟨2, ![66, 64]⟩
abbrev S64x128 : Shape := ⟨2, ![64, 128]⟩
abbrev S64 : Shape := ⟨1, ![64]⟩
abbrev S64x64 : Shape := ⟨2, ![64, 64]⟩
abbrev S524288x1 : Shape := ⟨2, ![524288, 1]⟩
abbrev S_ : Shape := ⟨0, ![]⟩
abbrev S128x64 : Shape := ⟨2, ![128, 64]⟩
abbrev S1x64 : Shape := ⟨2, ![1, 64]⟩
abbrev S8192x64 : Shape := ⟨2, ![8192, 64]⟩
abbrev S8192x1 : Shape := ⟨2, ![8192, 1]⟩
abbrev S8192x128 : Shape := ⟨2, ![8192, 128]⟩

abbrev nBuf : Space → Nat
  | .hbm => 26
  | .vmem => 11
  | .smem => 0
  | _ => 0

abbrev bufTy : (tb : Table) → Fin (tcTables nBuf tb) → BufTy
  | .hbm, ⟨0, _⟩ => ⟨S524288x64, .i32⟩
  | .hbm, ⟨1, _⟩ => ⟨S524288, .i32⟩
  | .hbm, ⟨2, _⟩ => ⟨S66x64, .f32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S524288x1, .i32⟩
  | .hbm, ⟨8, _⟩ => ⟨S_, .i32⟩
  | .hbm, ⟨9, _⟩ => ⟨S_, .f32⟩
  | .hbm, ⟨10, _⟩ => ⟨S128x64, .f32⟩
  | .hbm, ⟨11, _⟩ => ⟨S128x64, .f32⟩
  | .hbm, ⟨12, _⟩ => ⟨S64x64, .f32⟩
  | .hbm, ⟨13, _⟩ => ⟨S64x64, .f32⟩
  | .hbm, ⟨14, _⟩ => ⟨S128x64, .f32⟩
  | .hbm, ⟨15, _⟩ => ⟨S128x64, .bf16⟩
  | .hbm, ⟨16, _⟩ => ⟨S_, .f32⟩
  | .hbm, ⟨17, _⟩ => ⟨S128x64, .f32⟩
  | .hbm, ⟨18, _⟩ => ⟨S128x64, .f32⟩
  | .hbm, ⟨19, _⟩ => ⟨S128x64, .f32⟩
  | .hbm, ⟨20, _⟩ => ⟨S128x64, .bf16⟩
  | .hbm, ⟨21, _⟩ => ⟨S64x64, .f32⟩
  | .hbm, ⟨22, _⟩ => ⟨S64x64, .bf16⟩
  | .hbm, ⟨23, _⟩ => ⟨S1x64, .f32⟩
  | .hbm, ⟨24, _⟩ => ⟨S1x64, .f32⟩
  | .hbm, ⟨25, _⟩ => ⟨S524288x64, .f32⟩
  | .local _ .vmem, ⟨0, _⟩ => ⟨S8192x64, .i32⟩
  | .local _ .vmem, ⟨1, _⟩ => ⟨S8192x64, .i32⟩
  | .local _ .vmem, ⟨2, _⟩ => ⟨S8192x1, .i32⟩
  | .local _ .vmem, ⟨3, _⟩ => ⟨S8192x1, .i32⟩
  | .local _ .vmem, ⟨4, _⟩ => ⟨S128x64, .bf16⟩
  | .local _ .vmem, ⟨5, _⟩ => ⟨S128x64, .bf16⟩
  | .local _ .vmem, ⟨6, _⟩ => ⟨S1x64, .f32⟩
  | .local _ .vmem, ⟨7, _⟩ => ⟨S64x64, .bf16⟩
  | .local _ .vmem, ⟨8, _⟩ => ⟨S1x64, .f32⟩
  | .local _ .vmem, ⟨9, _⟩ => ⟨S8192x64, .f32⟩
  | .local _ .vmem, ⟨10, _⟩ => ⟨S8192x64, .f32⟩
  | _, _ => ⟨S524288x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S524288_S524288x1 : S524288.ShapeCasts S524288x1
  pads_S66x64_S128x64_0620_000 : S66x64.Pads (![0, 0] : Fin 2 → Nat) ![62, 0] ![0, 0] S128x64
  h_S_ : 0 < S_.numel
  transposes_S64x128_S128x64_1_0 : S64x128.Transposes [1, 0] S128x64
  slices_S128x64_S64x64_0_0 : S128x64.Slices ![0, 0] S64x64
  slices_S128x64_S64x64_64_0 : S128x64.Slices ![64, 0] S64x64
  bitsLt_bf16_f32 : FTy.bits .bf16 < FTy.bits .f32
  bcast_S_S128x64 : S_.BroadcastsInDim S128x64 (![] : Fin 0 → Fin S128x64.rank)
  transposes_S64x64_S64x64_1_0 : S64x64.Transposes [1, 0] S64x64
  shapeCasts_S64_S1x64 : S64.ShapeCasts S1x64
  iota_S8192x128_d1_w32 : S8192x128.Iotas .tc 32 [1]
  inb_S8192x64_S8192x1_0_55 : ∀ a, (![0, 55] : Fin 2 → Nat) a + S8192x1.size a ≤ S8192x64.size a
  h_S8192x1 : 0 < S8192x1.numel
  broadcasts_S8192x1_S8192x128 : S8192x1.Broadcasts S8192x128
  inb_S8192x64_S8192x1_0_56 : ∀ a, (![0, 56] : Fin 2 → Nat) a + S8192x1.size a ≤ S8192x64.size a
  inb_S8192x64_S8192x1_0_57 : ∀ a, (![0, 57] : Fin 2 → Nat) a + S8192x1.size a ≤ S8192x64.size a
  inb_S8192x64_S8192x1_0_58 : ∀ a, (![0, 58] : Fin 2 → Nat) a + S8192x1.size a ≤ S8192x64.size a
  inb_S8192x64_S8192x1_0_59 : ∀ a, (![0, 59] : Fin 2 → Nat) a + S8192x1.size a ≤ S8192x64.size a
  inb_S8192x64_S8192x1_0_60 : ∀ a, (![0, 60] : Fin 2 → Nat) a + S8192x1.size a ≤ S8192x64.size a
  inb_S8192x64_S8192x1_0_61 : ∀ a, (![0, 61] : Fin 2 → Nat) a + S8192x1.size a ≤ S8192x64.size a
  inb_S8192x64_S8192x1_0_62 : ∀ a, (![0, 62] : Fin 2 → Nat) a + S8192x1.size a ≤ S8192x64.size a
  inb_S8192x1_S8192x1_0_0 : ∀ a, (![0, 0] : Fin 2 → Nat) a + S8192x1.size a ≤ S8192x1.size a
  shapeCasts_S8192x1_S8192x1 : S8192x1.ShapeCasts S8192x1
  natLt_1_32 : 1 < 32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8192x64_S8192x64_0_0 : ∀ a, (![0, 0] : Fin 2 → Nat) a + S8192x64.size a ≤ S8192x64.size a
  h_S8192x64 : 0 < S8192x64.numel
  dot_S128x64_S64x64_S128x64_1_0_0_1_n_n_wf : DotDims.WF S128x64 S64x64 S128x64 [1] [0] [0] [1] [] []
  dot_S8192x128_S128x64_S8192x64_1_0_0_1_n_n_wf : DotDims.WF S8192x128 S128x64 S8192x64 [1] [0] [0] [1] [] []
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S524288x64.size a
  hwx0_0 : ∀ i : grid0.Coords, EltTy.bits .i32 = 32 ∨ (Rect.block (s := S524288x64) S8192x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S524288x1.size a
  hwx0_1 : ∀ i : grid0.Coords, EltTy.bits .i32 = 32 ∨ (Rect.block (s := S524288x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x64.size a ≤ S524288x64.size a
  hwx0_7 : ∀ i : grid0.Coords, EltTy.bits .f32 = 32 ∨ (Rect.block (s := S524288x64) S8192x64.size (cc0_transform_7 i) (hinb0_7 i)).WholeWords (EltTy.packing .f32)

variable [Facts₀]

def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S8192x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S524288x64 : Shape := ⟨2, ![524288, 64]⟩
abbrev S524288 : Shape := ⟨1, ![524288]⟩
abbrev S66x64 : Shape := ⟨2, ![66, 64]⟩
abbrev S64x128 : Shape := ⟨2, ![64, 128]⟩
abbrev S64 : Shape := ⟨1, ![64]⟩
abbrev S64x64 : Shape := ⟨2, ![64, 64]⟩
abbrev S524288x8 : Shape := ⟨2, ![524288, 8]⟩
abbrev S_ : Shape := ⟨0, ![]⟩
abbrev S524288x8x1 : Shape := ⟨3, ![524288, 8, 1]⟩
abbrev S524288x8x64 : Shape := ⟨3, ![524288, 8, 64]⟩
abbrev S524288x1 : Shape := ⟨2, ![524288, 1]⟩
abbrev S524288x128 : Shape := ⟨2, ![524288, 128]⟩
abbrev S128x64 : Shape := ⟨2, ![128, 64]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S524288x64, .i32⟩
  | .hbm, ⟨1, _⟩ => ⟨S524288, .i32⟩
  | .hbm, ⟨2, _⟩ => ⟨S66x64, .f32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S524288x8, .i32⟩
  | .hbm, ⟨8, _⟩ => ⟨S_, .i32⟩
  | .hbm, ⟨9, _⟩ => ⟨S524288x8, .i32⟩
  | .hbm, ⟨10, _⟩ => ⟨S524288x8, .i1⟩
  | .hbm, ⟨11, _⟩ => ⟨S_, .i32⟩
  | .hbm, ⟨12, _⟩ => ⟨S524288x8, .i32⟩
  | .hbm, ⟨13, _⟩ => ⟨S524288x8, .i32⟩
  | .hbm, ⟨14, _⟩ => ⟨S524288x8, .i32⟩
  | .hbm, ⟨15, _⟩ => ⟨S524288x8x1, .i32⟩
  | .hbm, ⟨16, _⟩ => ⟨S524288x8x64, .f32⟩
  | .hbm, ⟨17, _⟩ => ⟨S_, .f32⟩
  | .hbm, ⟨18, _⟩ => ⟨S524288x64, .f32⟩
  | .hbm, ⟨19, _⟩ => ⟨S_, .f32⟩
  | .hbm, ⟨20, _⟩ => ⟨S524288x64, .f32⟩
  | .hbm, ⟨21, _⟩ => ⟨S524288x64, .f32⟩
  | .hbm, ⟨22, _⟩ => ⟨S_, .i32⟩
  | .hbm, ⟨23, _⟩ => ⟨S524288, .i32⟩
  | .hbm, ⟨24, _⟩ => ⟨S524288, .i1⟩
  | .hbm, ⟨25, _⟩ => ⟨S_, .i32⟩
  | .hbm, ⟨26, _⟩ => ⟨S524288, .i32⟩
  | .hbm, ⟨27, _⟩ => ⟨S524288, .i32⟩
  | .hbm, ⟨28, _⟩ => ⟨S524288, .i32⟩
  | .hbm, ⟨29, _⟩ => ⟨S524288x1, .i32⟩
  | .hbm, ⟨30, _⟩ => ⟨S524288x64, .f32⟩
  | .hbm, ⟨31, _⟩ => ⟨S524288x128, .f32⟩
  | .hbm, ⟨32, _⟩ => ⟨S128x64, .f32⟩
  | .hbm, ⟨33, _⟩ => ⟨S524288x64, .f32⟩
  | .hbm, ⟨34, _⟩ => ⟨S1x64, .f32⟩
  | .hbm, ⟨35, _⟩ => ⟨S524288x64, .f32⟩
  | .hbm, ⟨36, _⟩ => ⟨S524288x64, .f32⟩
  | .hbm, ⟨37, _⟩ => ⟨S_, .f32⟩
  | .hbm, ⟨38, _⟩ => ⟨S524288x64, .f32⟩
  | .hbm, ⟨39, _⟩ => ⟨S524288x64, .f32⟩
  | .hbm, ⟨40, _⟩ => ⟨S64x64, .f32⟩
  | .hbm, ⟨41, _⟩ => ⟨S524288x64, .f32⟩
  | .hbm, ⟨42, _⟩ => ⟨S1x64, .f32⟩
  | .hbm, ⟨43, _⟩ => ⟨S524288x64, .f32⟩
  | .hbm, ⟨44, _⟩ => ⟨S524288x64, .f32⟩
  | _, _ => ⟨S524288x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  slices_S524288x64_S524288x8_0_55 : S524288x64.Slices ![0, 55] S524288x8
  bcast_S_S524288x8 : S_.BroadcastsInDim S524288x8 (![] : Fin 0 → Fin S524288x8.rank)
  bcast_S524288x8_S524288x8x1_0_1 : S524288x8.BroadcastsInDim S524288x8x1 (![0, 1] : Fin 2 → Fin S524288x8x1.rank)
  reducesTo_S524288x8x64_S524288x64_d1 : S524288x8x64.ReducesTo [1] S524288x64
  h_S_ : 0 < S_.numel
  bcast_S_S524288x64 : S_.BroadcastsInDim S524288x64 (![] : Fin 0 → Fin S524288x64.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x64_S524288x64_S524288x128_d1 : Shape.Concatenates [S524288x64, S524288x64] S524288x128 1
  transposes_S64x128_S128x64_1_0 : S64x128.Transposes [1, 0] S128x64
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  transposes_S64x64_S64x64_1_0 : S64x64.Transposes [1, 0] S64x64
  gather_S66x64_S524288x8x1_S524288x8x64_2_0_n_n_0_2_164_wf : GatherDims.WF S66x64 S524288x8x1 S524288x8x64 [2] [0] [] [0] [] 2 ![1, 64]
  gather_S66x64_S524288x1_S524288x64_1_0_n_n_0_1_164_wf : GatherDims.WF S66x64 S524288x1 S524288x64 [1] [0] [] [0] [] 1 ![1, 64]
  dot_S524288x128_S128x64_S524288x64_1_0_0_1_n_n_wf : DotDims.WF S524288x128 S128x64 S524288x64 [1] [0] [0] [1] [] []
  dot_S524288x64_S64x64_S524288x64_1_0_0_1_n_n_wf : DotDims.WF S524288x64 S64x64 S524288x64 [1] [0] [0] [1] [] []

variable [Facts₀]

def gather_S66x64_S524288x8x1_S524288x8x64_2_0_n_n_0_2_164 : GatherDims S66x64 S524288x8x1 S524288x8x64 where
  offsetDims := [2]
  collapsedSliceDims := [0]
  operandBatchingDims := []
  startIndicesBatchingDims := []
  startIndexMap := [0]
  indexVectorDim := 2
  sliceSizes := ![1, 64]
  wf := gather_S66x64_S524288x8x1_S524288x8x64_2_0_n_n_0_2_164_wf
def gather_S66x64_S524288x1_S524288x64_1_0_n_n_0_1_164 : GatherDims S66x64 S524288x1 S524288x64 where
  offsetDims := [1]
  collapsedSliceDims := [0]
  operandBatchingDims := []
  startIndicesBatchingDims := []
  startIndexMap := [0]
  indexVectorDim := 1
  sliceSizes := ![1, 64]
  wf := gather_S66x64_S524288x1_S524288x64_1_0_n_n_0_1_164_wf
def dot_S524288x128_S128x64_S524288x64_1_0_0_1_n_n : DotDims S524288x128 S128x64 S524288x64 where
  lhsContracting := [1]
  rhsContracting := [0]
  lhsNonContracting := [0]
  rhsNonContracting := [1]
  lhsBatch := []
  rhsBatch := []
  wf := dot_S524288x128_S128x64_S524288x64_1_0_0_1_n_n_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf

class Facts : Prop extends Facts₀ where

variable [Facts]
-- ==== Proof.Spec.lean ====
/-
  The two ways of writing one row of logits, as plain functions over the extended reals.

  A row of the batch has a query token `x` and eight window tokens `w 0 … w 7` (32-bit words read as signed
  integers). With `E` the embedding table (66 rows of 64), `W1` the first layer (64 outputs of 128 inputs: the
  first 64 inputs meet the query's embedding, the last 64 the mean of the window's embeddings), `b1` its bias,
  `W2` the second layer (64 × 64) and `b2` its bias, the row's logits are

      logits j = ∑ k, relu (∑ κ, cat κ · W1 k κ + b1 k) · W2 j k + b2 j,
      cat = (E[x], (E[w 0] + … + E[w 7]) / 8).

  `rOut` is that formula with the table rows looked up (`rowOf`: the word read signed and clamped to the table).
  `kOut` is the same row computed from ONE-HOT vectors over 128 lanes: the query's indicator `ohE` and the window's
  lane counts `cntE` (eight successive "add one where the lane number equals the token"), each contracted with a
  128-row table that already holds the embedding table (zero rows past row 65) times the half of `W1` it meets —
  `gqE` for the query's half, `gmE`, with the factor 1/8 folded in, for the window's half.
-/
import Idealize.ShloMosaic.PureOps.Ideal
import Idealize.ShloMosaic.Lib.ValueIdx

noncomputable section

open scoped BigOperators

namespace Cert.Spec

open Idealize.ShloMosaic Idealize.ShloMosaic.ValueIdx

/-! ## Tokens and lanes as extended reals -/

/-- A 32-bit word read as a signed integer, as an extended real. -/
def tokE (x : BitVec 32) : EReal := ((x.toInt : ℝ) : EReal)

/-- Lane number `v` of 128, as the kernel makes it: the word `v` read signed, as an extended real. -/
def laneE (v : Fin 128) : EReal := tokE (BitVec.ofNat 32 v.val)

/-- The query's indicator: one on the lane whose number is the token, zero elsewhere. -/
def ohE (x : BitVec 32) (v : Fin 128) : EReal := if laneE v = tokE x then 1 else 0

/-- One step of the window count on a lane: add one when the lane's number is the token. -/
def bump (lane t c : EReal) : EReal := if lane = t then c + 1 else c

/-- The window's count on lane `v`: from zero, one step per window token, in order. -/
def cntE (w : Fin 8 → BitVec 32) (v : Fin 128) : EReal :=
  bump (laneE v) (tokE (w 7)) (bump (laneE v) (tokE (w 6)) (bump (laneE v) (tokE (w 5)) (bump (laneE v) (tokE (w 4))
    (bump (laneE v) (tokE (w 3)) (bump (laneE v) (tokE (w 2)) (bump (laneE v) (tokE (w 1)) (bump (laneE v) (tokE (w 0)) 0)))))))

/-- A token is a row number of the embedding table. -/
def InRange (x : BitVec 32) : Prop := 0 ≤ x.toInt ∧ x.toInt < 66

/-- Every entry is a real number. -/
def AllReal {ι : Type} (f : ι → EReal) : Prop := ∀ i, ∃ r : ℝ, f i = (r : EReal)

/-! ## The kernel's way -/

/-- The embedding table padded with zero rows to 128 rows. -/
def padE (E : Fin 66 → Fin 64 → EReal) (v : Fin 128) (k' : Fin 64) : EReal :=
  if h : v.val < 66 then E ⟨v.val, h⟩ k' else 0

/-- One eighth, as the kernel's program spells it. -/
def eighth : EReal := Ideal.ofBits .f32 0x3E000000#32

/-- Eight, as the reference spells it. -/
def eight : EReal := Ideal.ofBits .f32 0x41000000#32

/-- The query's table: padded embedding rows times the first half of `W1`. -/
def gqE (E : Fin 66 → Fin 64 → EReal) (W1 : Fin 64 → Fin 128 → EReal) (v : Fin 128) (k : Fin 64) : EReal :=
  ∑ k' : Fin 64, padE E v k' * W1 k (Fin.castAdd 64 k')

/-- The window's table: padded embedding rows, each entry times one eighth, times the second half of `W1`. -/
def gmE (E : Fin 66 → Fin 64 → EReal) (W1 : Fin 64 → Fin 128 → EReal) (v : Fin 128) (k : Fin 64) : EReal :=
  ∑ k' : Fin 64, (padE E v k' * eighth) * W1 k (Fin.natAdd 64 k')

/-- Hidden unit `k` from the one-hot vectors and two 128-row tables. -/
def kHid (x : BitVec 32) (w : Fin 8 → BitVec 32) (gq gm : Fin 128 → Fin 64 → EReal) (b1 : Fin 64 → EReal) (k : Fin 64) : EReal :=
  max (((∑ v : Fin 128, ohE x v * gq v k) + (∑ v : Fin 128, cntE w v * gm v k)) + b1 k) 0

/-- Logit `j` the kernel's way; `w2t k j` is the second layer transposed. -/
def kOut (x : BitVec 32) (w : Fin 8 → BitVec 32) (gq gm : Fin 128 → Fin 64 → EReal) (b1 : Fin 64 → EReal)
    (w2t : Fin 64 → Fin 64 → EReal) (b2 : Fin 64 → EReal) (j : Fin 64) : EReal :=
  (∑ k : Fin 64, kHid x w gq gm b1 k * w2t k j) + b2 j

/-! ## The reference's way -/

/-- The table row a word selects: read signed, clamped to the table. -/
def rowOf (x : BitVec 32) : Fin 66 := ⟨min x.toInt.toNat 65, by omega⟩

/-- The 128 inputs of the first layer: the query's embedding, then the mean of the window's embeddings. -/
def rCat (E : Fin 66 → Fin 64 → EReal) (x : BitVec 32) (w : Fin 8 → BitVec 32) (κ : Fin 128) : EReal :=
  if h : κ.val < 64 then E (rowOf x) ⟨κ.val, h⟩
  else Ideal.div (0 + ∑ n : Fin 8, E (rowOf (w n)) ⟨κ.val - 64, by omega⟩) eight

/-- Hidden unit `k`. -/
def rHid (E : Fin 66 → Fin 64 → EReal) (W1 : Fin 64 → Fin 128 → EReal) (b1 : Fin 64 → EReal) (x : BitVec 32) (w : Fin 8 → BitVec 32)
    (k : Fin 64) : EReal :=
  max ((∑ κ : Fin 128, rCat E x w κ * W1 k κ) + b1 k) 0

/-- Logit `j`. -/
def rOut (E : Fin 66 → Fin 64 → EReal) (W1 : Fin 64 → Fin 128 → EReal) (b1 : Fin 64 → EReal) (W2 : Fin 64 → Fin 64 → EReal)
    (b2 : Fin 64 → EReal) (x : BitVec 32) (w : Fin 8 → BitVec 32) (j : Fin 64) : EReal :=
  (∑ k : Fin 64, rHid E W1 b1 x w k * W2 j k) + b2 j

/-! ## The arrays as plain functions -/

abbrev SSeq : Shape := ⟨2, ![524288, 64]⟩
abbrev SQ : Shape := ⟨1, ![524288]⟩
abbrev SE : Shape := ⟨2, ![66, 64]⟩
abbrev SW1 : Shape := ⟨2, ![64, 128]⟩
abbrev SB : Shape := ⟨1, ![64]⟩
abbrev SW2 : Shape := ⟨2, ![64, 64]⟩
abbrev SOut : Shape := ⟨2, ![524288, 64]⟩

/-- Column `55 + n` of a row of `seqs`: the window's `n`-th position. -/
def winCol (n : Fin 8) : Fin 64 := ⟨55 + n.val, by omega⟩

def matE (E : SE.Idx → EReal) : Fin 66 → Fin 64 → EReal := fun a b => E (ix2 a b)
def matW1 (W1 : SW1.Idx → EReal) : Fin 64 → Fin 128 → EReal := fun k κ => W1 (ix2 k κ)
def vecB (b : SB.Idx → EReal) : Fin 64 → EReal := fun k => b (ix1 k)
def matW2 (W2 : SW2.Idx → EReal) : Fin 64 → Fin 64 → EReal := fun j k => W2 (ix2 j k)
/-- Row `r`'s query token. -/
def qTok (q : SQ.Idx → BitVec 32) (r : Fin 524288) : BitVec 32 := q (ix1 r)
/-- Row `r`'s window tokens. -/
def wTok (seqs : SSeq.Idx → BitVec 32) (r : Fin 524288) : Fin 8 → BitVec 32 := fun n => seqs (ix2 r (winCol n))

/-- THE RESULT: entry `(r, j)` is logit `j` of row `r`, the reference's way. -/
def G (seqs : SSeq.Idx → BitVec 32) (q : SQ.Idx → BitVec 32) (E : SE.Idx → EReal) (W1 : SW1.Idx → EReal) (b1 : SB.Idx → EReal)
    (W2 : SW2.Idx → EReal) (b2 : SB.Idx → EReal) : SOut.Idx → EReal :=
  fun i => rOut (matE E) (matW1 W1) (vecB b1) (matW2 W2) (vecB b2) (qTok q (i 0)) (wTok seqs (i 0)) (i 1)

/-- The same array the kernel's way. -/
def GK (seqs : SSeq.Idx → BitVec 32) (q : SQ.Idx → BitVec 32) (E : SE.Idx → EReal) (W1 : SW1.Idx → EReal) (b1 : SB.Idx → EReal)
    (W2 : SW2.Idx → EReal) (b2 : SB.Idx → EReal) : SOut.Idx → EReal :=
  fun i => kOut (qTok q (i 0)) (wTok seqs (i 0)) (gqE (matE E) (matW1 W1)) (gmE (matE E) (matW1 W1)) (vecB b1)
    (fun k j => matW2 W2 j k) (vecB b2) (i 1)

/-- What the precondition says of the arguments. -/
structure Pre (seqs : SSeq.Idx → BitVec 32) (q : SQ.Idx → BitVec 32) (E : SE.Idx → EReal) (W1 : SW1.Idx → EReal) (b1 : SB.Idx → EReal)
    (W2 : SW2.Idx → EReal) (b2 : SB.Idx → EReal) : Prop where
  realE : AllReal E
  realW1 : AllReal W1
  realB1 : AllReal b1
  realW2 : AllReal W2
  realB2 : AllReal b2
  rangeW : ∀ (r : Fin 524288) (n : Fin 8), InRange (wTok seqs r n)
  rangeQ : ∀ r : Fin 524288, InRange (qTok q r)

end Cert.Spec

end
-- ==== Proof.Algebra.lean ====
/-
  The two ways of writing a row's logits agree when the embedding table and the first layer hold real numbers
  and the tokens are row numbers of the table.

  The heart is the hidden layer before the bias. On the one-hot side a lane `v` contributes its indicator (or its
  count) times a table entry that is itself a sum over the embedding's 64 columns; because every number in sight
  is real, the sums may be exchanged and the factors regrouped: the indicator's sum picks the query's row, the
  count's sum adds the eight window rows, and the folded factor 1/8 is the division by eight. On the other side
  the 128 inputs split into the first 64 (the query's embedding) and the last 64 (the mean).
-/
import proofs.«403954_j77068893160211_3_alg».proof.Proof.Spec
import Mathlib.Algebra.BigOperators.Fin
import Mathlib.Data.EReal.Operations

noncomputable section

open scoped BigOperators

namespace Cert.Spec

open Idealize.ShloMosaic

theorem eighth_eq : eighth = ((1 / 8 : ℝ) : EReal) := by
  unfold eighth
  simp [Ideal.ofBits, Ideal.ieee, -EReal.coe_mul]; norm_num

theorem eight_eq : eight = ((8 : ℝ) : EReal) := by
  unfold eight
  simp [Ideal.ofBits, Ideal.ieee, -EReal.coe_mul]; norm_num

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem toInt_lane (v : Fin 128) : (BitVec.ofNat 32 v.val).toInt = (v.val : ℤ) := by
  have h := v.isLt
  rw [BitVec.toInt_eq_toNat_of_lt]
  · simp [BitVec.toNat_ofNat]; omega
  · simp [BitVec.toNat_ofNat]; omega

theorem lane_eq_iff (v : Fin 128) (x : BitVec 32) (hx : InRange x) :
    laneE v = tokE x ↔ v.val = x.toInt.toNat := by
  unfold laneE tokE
  rw [EReal.coe_eq_coe_iff, Int.cast_inj, toInt_lane]
  obtain ⟨h0, h1⟩ := hx
  omega

/-- A sum against an indicator picks one term. -/
theorem sum_ind_mul (a : Fin 128) (g : Fin 128 → EReal) :
    ∑ v : Fin 128, (if v.val = a.val then (1 : EReal) else 0) * g v = g a := by
  rw [Finset.sum_eq_single a]
  · simp
  · intro b _ hb
    rw [if_neg (fun h => hb (Fin.ext h)), zero_mul]
  · intro h; exact absurd (Finset.mem_univ a) h

/-- The same over the reals. -/
theorem sum_ind_mul_real (a : Fin 128) (g : Fin 128 → ℝ) :
    ∑ v : Fin 128, (if v.val = a.val then (1 : ℝ) else 0) * g v = g a := by
  rw [Finset.sum_eq_single a]
  · simp
  · intro b _ hb
    rw [if_neg (fun h => hb (Fin.ext h)), zero_mul]
  · intro h; exact absurd (Finset.mem_univ a) h

theorem rowOf_val (x : BitVec 32) (hx : InRange x) : (rowOf x).val = x.toInt.toNat := by
  obtain ⟨h0, h1⟩ := hx
  simp only [rowOf]
  omega

/-- The lane a table row sits on. -/
def laneOf (a : Fin 66) : Fin 128 := ⟨a.val, by omega⟩

theorem ohE_eq (x : BitVec 32) (hx : InRange x) (v : Fin 128) :
    ohE x v = if v.val = (laneOf (rowOf x)).val then 1 else 0 := by
  unfold ohE
  simp only [lane_eq_iff v x hx, laneOf, rowOf_val x hx]

theorem padE_laneOf (E : Fin 66 → Fin 64 → EReal) (a : Fin 66) (k' : Fin 64) : padE E (laneOf a) k' = E a k' := by
  unfold padE laneOf
  rw [dif_pos a.isLt]

theorem rCat_left (E : Fin 66 → Fin 64 → EReal) (x : BitVec 32) (w : Fin 8 → BitVec 32) (k' : Fin 64) :
    rCat E x w (Fin.castAdd 64 k') = E (rowOf x) k' := by
  unfold rCat
  rw [dif_pos (by simp : (Fin.castAdd 64 k').val < 64)]
  rfl

theorem rCat_right (E : Fin 66 → Fin 64 → EReal) (x : BitVec 32) (w : Fin 8 → BitVec 32) (k' : Fin 64) :
    rCat E x w (Fin.natAdd 64 k') = Ideal.div (0 + ∑ n : Fin 8, E (rowOf (w n)) k') eight := by
  unfold rCat
  rw [dif_neg (by simp : ¬ (Fin.natAdd 64 k').val < 64)]
  have h : ∀ p, (⟨(Fin.natAdd 64 k').val - 64, p⟩ : Fin 64) = k' := by
    intro p; apply Fin.ext; simp
  simp only [h]

/-- The query's half. -/
theorem half1 (E : Fin 66 → Fin 64 → EReal) (W1 : Fin 64 → Fin 128 → EReal) (x : BitVec 32) (w : Fin 8 → BitVec 32)
    (hx : InRange x) (k : Fin 64) :
    ∑ v : Fin 128, ohE x v * gqE E W1 v k = ∑ k' : Fin 64, rCat E x w (Fin.castAdd 64 k') * W1 k (Fin.castAdd 64 k') := by
  simp only [ohE_eq x hx]
  rw [sum_ind_mul (laneOf (rowOf x)) (fun v => gqE E W1 v k)]
  unfold gqE
  simp only [padE_laneOf, rCat_left]

theorem bump_eq (l t c : EReal) : bump l t c = c + if l = t then 1 else 0 := by
  unfold bump
  split_ifs <;> simp

theorem ind_coe (p : Prop) [Decidable p] : (if p then (1 : EReal) else 0) = ((if p then (1 : ℝ) else 0 : ℝ) : EReal) := by
  split_ifs <;> simp

/-- The window's count on a lane is the number of window tokens sitting on it. -/
theorem cntE_eq (w : Fin 8 → BitVec 32) (hw : ∀ n, InRange (w n)) (v : Fin 128) :
    cntE w v = ((∑ n : Fin 8, if v.val = (laneOf (rowOf (w n))).val then (1 : ℝ) else 0 : ℝ) : EReal) := by
  unfold cntE
  simp only [bump_eq, fun n => lane_eq_iff v (w n) (hw n), laneOf, fun n => rowOf_val (w n) (hw n), ind_coe, zero_add,
    ← EReal.coe_add]
  rw [Fin.sum_univ_eight]

/-- The padded table over the reals. -/
def padR (e : Fin 66 → Fin 64 → ℝ) (v : Fin 128) (k' : Fin 64) : ℝ :=
  if h : v.val < 66 then e ⟨v.val, h⟩ k' else 0

theorem padE_coe (e : Fin 66 → Fin 64 → ℝ) (v : Fin 128) (k' : Fin 64) :
    padE (fun a b => ((e a b : ℝ) : EReal)) v k' = ((padR e v k' : ℝ) : EReal) := by
  unfold padE padR
  split_ifs <;> simp

theorem padR_laneOf (e : Fin 66 → Fin 64 → ℝ) (a : Fin 66) (k' : Fin 64) : padR e (laneOf a) k' = e a k' := by
  unfold padR laneOf
  rw [dif_pos a.isLt]

theorem gmE_coe (e : Fin 66 → Fin 64 → ℝ) (w1 : Fin 64 → Fin 128 → ℝ) (v : Fin 128) (k : Fin 64) :
    gmE (fun a b => ((e a b : ℝ) : EReal)) (fun k κ => ((w1 k κ : ℝ) : EReal)) v k
      = ((∑ k' : Fin 64, padR e v k' * (1 / 8) * w1 k (Fin.natAdd 64 k') : ℝ) : EReal) := by
  unfold gmE
  simp only [padE_coe, eighth_eq, ← EReal.coe_mul, coe_sum]

/-- The real identity behind the window's half. -/
theorem half2_real (a : Fin 8 → Fin 66) (e : Fin 66 → Fin 64 → ℝ) (u : Fin 64 → ℝ) :
    ∑ v : Fin 128, (∑ n : Fin 8, if v.val = (laneOf (a n)).val then (1 : ℝ) else 0) * (∑ k' : Fin 64, padR e v k' * (1 / 8) * u k')
      = ∑ k' : Fin 64, (∑ n : Fin 8, e (a n) k') * (1 / 8) * u k' := by
  simp only [Finset.sum_mul]
  rw [Finset.sum_comm]
  simp only [sum_ind_mul_real (laneOf _) (fun v => ∑ k' : Fin 64, padR e v k' * (1 / 8) * u k'), padR_laneOf]
  rw [Finset.sum_comm]

/-- The window's half. -/
theorem half2 (e : Fin 66 → Fin 64 → ℝ) (w1 : Fin 64 → Fin 128 → ℝ) (x : BitVec 32) (w : Fin 8 → BitVec 32)
    (hw : ∀ n, InRange (w n)) (k : Fin 64) :
    ∑ v : Fin 128, cntE w v * gmE (fun a b => ((e a b : ℝ) : EReal)) (fun k κ => ((w1 k κ : ℝ) : EReal)) v k
      = ∑ k' : Fin 64, rCat (fun a b => ((e a b : ℝ) : EReal)) x w (Fin.natAdd 64 k') * ((w1 k (Fin.natAdd 64 k') : ℝ) : EReal) := by
  simp only [cntE_eq w hw, gmE_coe, rCat_right, eight_eq, Ideal.div_coe (by norm_num : (8 : ℝ) ≠ 0), zero_add,
    ← coe_sum, ← EReal.coe_mul]
  rw [half2_real (fun n => rowOf (w n)) e (fun k' => w1 k (Fin.natAdd 64 k'))]

/-- The hidden layer before the bias: one-hot vectors against the folded tables give the concatenated embeddings
    against `W1`. -/
theorem hidden_eq (E : Fin 66 → Fin 64 → EReal) (W1 : Fin 64 → Fin 128 → EReal)
    (hE : ∀ a b, ∃ r : ℝ, E a b = (r : EReal)) (hW : ∀ k κ, ∃ r : ℝ, W1 k κ = (r : EReal))
    (x : BitVec 32) (w : Fin 8 → BitVec 32) (hx : InRange x) (hw : ∀ n, InRange (w n)) (k : Fin 64) :
    (∑ v : Fin 128, ohE x v * gqE E W1 v k) + (∑ v : Fin 128, cntE w v * gmE E W1 v k)
      = ∑ κ : Fin 128, rCat E x w κ * W1 k κ := by
  choose e he using hE
  choose w1 hw1 using hW
  obtain rfl : E = fun a b => ((e a b : ℝ) : EReal) := funext fun a => funext fun b => he a b
  obtain rfl : W1 = fun k κ => ((w1 k κ : ℝ) : EReal) := funext fun k => funext fun κ => hw1 k κ
  rw [half1 _ _ x w hx k, half2 e w1 x w hw k]
  exact (Fin.sum_univ_add (fun κ : Fin (64 + 64) =>
    rCat (fun a b => ((e a b : ℝ) : EReal)) x w κ * ((w1 k κ : ℝ) : EReal))).symm

/-- A row's logits, the kernel's way and the reference's. -/
theorem kOut_eq_rOut (E : Fin 66 → Fin 64 → EReal) (W1 : Fin 64 → Fin 128 → EReal)
    (hE : ∀ a b, ∃ r : ℝ, E a b = (r : EReal)) (hW : ∀ k κ, ∃ r : ℝ, W1 k κ = (r : EReal))
    (b1 : Fin 64 → EReal) (W2 : Fin 64 → Fin 64 → EReal) (b2 : Fin 64 → EReal)
    (x : BitVec 32) (w : Fin 8 → BitVec 32) (hx : InRange x) (hw : ∀ n, InRange (w n)) (j : Fin 64) :
    kOut x w (gqE E W1) (gmE E W1) b1 (fun k j => W2 j k) b2 j = rOut E W1 b1 W2 b2 x w j := by
  unfold kOut rOut kHid rHid
  simp only [hidden_eq E W1 hE hW x w hx hw]

/-- The whole array. -/
theorem GK_eq_G (seqs : SSeq.Idx → BitVec 32) (q : SQ.Idx → BitVec 32) (E : SE.Idx → EReal) (W1 : SW1.Idx → EReal)
    (b1 : SB.Idx → EReal) (W2 : SW2.Idx → EReal) (b2 : SB.Idx → EReal) (h : Pre seqs q E W1 b1 W2 b2) :
    GK seqs q E W1 b1 W2 b2 = G seqs q E W1 b1 W2 b2 := by
  funext i
  exact kOut_eq_rOut (matE E) (matW1 W1) (fun a b => h.realE _) (fun k κ => h.realW1 _) (vecB b1) (matW2 W2) (vecB b2)
    (qTok q (i 0)) (wTok seqs (i 0)) (h.rangeQ (i 0)) (fun n => h.rangeW (i 0) n) (i 1)

end Cert.Spec

end
-- ==== Proof.Pre.lean ====
/-
  What the precondition says, read off its printed text: every entry of the five float arguments is a real number
  (its absolute value is below +∞), every window token (columns 55 … 62 of `seqs`) and every query token is a row
  number of the embedding table (at least 0 and below 66, as signed words).
-/
import proofs.«403954_j77068893160211_3_alg».proof.Pre_finite_inputs
import proofs.«403954_j77068893160211_3_alg».proof.Proof.Spec
import Idealize.ShloMosaic.Lib.ReduceAll
import Idealize.ShloMosaic.Lib.StableHlo.Predicate
import Idealize.ShloMosaic.Lib.Pipeline.Value
import Idealize.ShloMosaic.Lib.ValueIdx
import Idealize.ShloMosaic.PureOps.Ideal.Laws

noncomputable section

namespace Cert.PreRead

open Idealize.ShloMosaic Idealize.ShloMosaic.ValueIdx Cert.Pre_finite_inputs Cert.Spec

/-- The scalar shape has one index. -/
instance : Subsingleton S_.Idx := ⟨fun _ _ => funext fun d => d.elim0⟩

/-- The pattern 0x7F800000 denotes +∞. -/
theorem inf_bits : Ideal.ofBits .f32 0x7F800000#32 = (⊤ : EReal) := by simp [Ideal.ofBits, Ideal.ieee]

/-- An extended real whose absolute value is below +∞ is a real number. -/
theorem real_of_abs_lt (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- `all (|x| < +∞)` over an array, read back: every entry is a real number. -/
theorem allReal_of_all {s : Shape} {axes : List (Fin s.rank)} (x : FVec Ideal s .f32) (hb : S_.BroadcastsInDim s ![])
    (hr : s.ReducesTo axes S_) (h0 : 0 < S_.numel)
    (e : Host.reduce IntOp.andi (cmpf .olt (Host.absf x) (broadcastInDim s ![] hb (constant (F := Ideal) S_ .f32 0x7F800000#32)))
      (constantI S_ 1 1#1) hr h0 ix0 = 1#1) : AllReal x := by
  intro i
  have hi := Host.reduce_andi_all _ _ hr h0 ix0 e i
  refine real_of_abs_lt (x i) ?_
  rw [← inf_bits]
  exact hi

/-- The window slice at `(r, n)` is `seqs` at `(r, 55 + n)`. -/
theorem slice_win (seqs : IVec S524288x64 32) (hs : S524288x64.Slices ![0, 55] S524288x8) (r : Fin 524288) (n : Fin 8) :
    extractStridedSlice S524288x8 ![0, 55] seqs hs (ix2 r n) = seqs (ix2 r (winCol n)) :=
  extractStridedSlice_apply _ seqs hs (ix2 r n) (ix2 r (winCol n)) fun a =>
    match a with
    | ⟨0, _⟩ => by show r.val = 0 + r.val; omega
    | ⟨1, _⟩ => by show 55 + n.val = 55 + n.val; rfl

/-- `all (seqs[:, 55:63] ≥ 0)` read back at a window position. -/
theorem win_ge (seqs : IVec S524288x64 32) (hs : S524288x64.Slices ![0, 55] S524288x8) (hb : S_.BroadcastsInDim S524288x8 ![])
    {axes : List (Fin S524288x8.rank)} (hr : S524288x8.ReducesTo axes S_) (h0 : 0 < S_.numel)
    (e : Host.reduce IntOp.andi (cmpi .sge (extractStridedSlice S524288x8 ![0, 55] seqs hs)
      (broadcastInDim S524288x8 ![] hb (constantI S_ 32 0#32))) (constantI S_ 1 1#1) hr h0 ix0 = 1#1)
    (r : Fin 524288) (n : Fin 8) : 0 ≤ (seqs (ix2 r (winCol n))).toInt := by
  have hi := Host.reduce_andi_all _ _ hr h0 ix0 e (ix2 r n)
  have h1 : (0#32 : BitVec 32).toInt ≤ (extractStridedSlice S524288x8 ![0, 55] seqs hs (ix2 r n)).toInt := IntOp.cmpi_sge.1 hi
  rw [slice_win] at h1
  exact h1

/-- `all (seqs[:, 55:63] < 66)` read back at a window position. -/
theorem win_lt (seqs : IVec S524288x64 32) (hs : S524288x64.Slices ![0, 55] S524288x8) (hb : S_.BroadcastsInDim S524288x8 ![])
    {axes : List (Fin S524288x8.rank)} (hr : S524288x8.ReducesTo axes S_) (h0 : 0 < S_.numel)
    (e : Host.reduce IntOp.andi (cmpi .slt (extractStridedSlice S524288x8 ![0, 55] seqs hs)
      (broadcastInDim S524288x8 ![] hb (constantI S_ 32 66#32))) (constantI S_ 1 1#1) hr h0 ix0 = 1#1)
    (r : Fin 524288) (n : Fin 8) : (seqs (ix2 r (winCol n))).toInt < 66 := by
  have hi := Host.reduce_andi_all _ _ hr h0 ix0 e (ix2 r n)
  have h1 : (extractStridedSlice S524288x8 ![0, 55] seqs hs (ix2 r n)).toInt < (66#32 : BitVec 32).toInt := IntOp.cmpi_slt.1 hi
  rw [slice_win] at h1
  exact h1

/-- `all (q ≥ 0)` read back at a row. -/
theorem q_ge (q : IVec S524288 32) (hb : S_.BroadcastsInDim S524288 ![])
    {axes : List (Fin S524288.rank)} (hr : S524288.ReducesTo axes S_) (h0 : 0 < S_.numel)
    (e : Host.reduce IntOp.andi (cmpi .sge q (broadcastInDim S524288 ![] hb (constantI S_ 32 0#32))) (constantI S_ 1 1#1) hr h0 ix0 = 1#1)
    (r : Fin 524288) : 0 ≤ (q (ix1 r)).toInt := by
  have hi := Host.reduce_andi_all _ _ hr h0 ix0 e (ix1 r)
  have h1 : (0#32 : BitVec 32).toInt ≤ (q (ix1 r)).toInt := IntOp.cmpi_sge.1 hi
  exact h1

/-- `all (q < 66)` read back at a row. -/
theorem q_lt (q : IVec S524288 32) (hb : S_.BroadcastsInDim S524288 ![])
    {axes : List (Fin S524288.rank)} (hr : S524288.ReducesTo axes S_) (h0 : 0 < S_.numel)
    (e : Host.reduce IntOp.andi (cmpi .slt q (broadcastInDim S524288 ![] hb (constantI S_ 32 66#32))) (constantI S_ 1 1#1) hr h0 ix0 = 1#1)
    (r : Fin 524288) : (q (ix1 r)).toInt < 66 := by
  have hi := Host.reduce_andi_all _ _ hr h0 ix0 e (ix1 r)
  have h1 : (q (ix1 r)).toInt < (66#32 : BitVec 32).toInt := IntOp.cmpi_slt.1 hi
  exact h1

/-- The printed precondition, all ones, gives `Spec.Pre` of the arguments. -/
theorem pre_of_fn [Cert.Pre_finite_inputs.Facts] (seqs : IVec S524288x64 32) (q : IVec S524288 32) (E : FVec Ideal S66x64 .f32)
    (W1 : FVec Ideal S64x128 .f32) (b1 : FVec Ideal S64 .f32) (W2 : FVec Ideal S64x64 .f32) (b2 : FVec Ideal S64 .f32)
    (h : Cert.Pre_finite_inputs.fn (F := Ideal) seqs q E W1 b1 W2 b2 = fun _ => 1#1) :
    Cert.Spec.Pre seqs q E W1 b1 W2 b2 := by
  have h0 := congrFun h ValueIdx.ix0
  dsimp only [fn, fn_part1, fn_part2] at h0
  obtain ⟨h1, hq66⟩ := IntOp.andi_eq_one.1 h0
  obtain ⟨h2, hq0⟩ := IntOp.andi_eq_one.1 h1
  obtain ⟨h3, hw66⟩ := IntOp.andi_eq_one.1 h2
  obtain ⟨h4, hw0⟩ := IntOp.andi_eq_one.1 h3
  obtain ⟨h5, hb2⟩ := IntOp.andi_eq_one.1 h4
  obtain ⟨h6, hW2⟩ := IntOp.andi_eq_one.1 h5
  obtain ⟨h7, hb1⟩ := IntOp.andi_eq_one.1 h6
  obtain ⟨hE, hW1⟩ := IntOp.andi_eq_one.1 h7
  exact
    { realE := allReal_of_all E _ _ _ hE
      realW1 := allReal_of_all W1 _ _ _ hW1
      realB1 := allReal_of_all b1 _ _ _ hb1
      realW2 := allReal_of_all W2 _ _ _ hW2
      realB2 := allReal_of_all b2 _ _ _ hb2
      rangeW := fun r n => And.intro (win_ge seqs _ _ _ _ hw0 r n) (win_lt seqs _ _ _ _ hw66 r n)
      rangeQ := fun r => And.intro (q_ge q _ _ _ hq0 r) (q_lt q _ _ _ hq66 r) }

end Cert.PreRead

end
-- ==== Proof.LibRowTake.lean ====
/-
  A ROW TAKE read at an index.

  `table[idx]` for a rank-2 table `[N, D]` and a vector of `n` row numbers lowers to a `stablehlo.gather` whose
  start indices are the `[n, 1]` column of row numbers: the table's row axis is collapsed and start-indexed, its
  column axis is the result's one offset axis, a slice is one whole row (`slice_sizes = [1, D]`), and the index
  vector lies on axis 1 of the start indices. Result element `(r, c)` is then the table at row `idx[r, 0]`, read as
  a signed integer and clamped into `[0, N − 1]` (a negative row number reads row 0, one past the end the last
  row), and column `c`. `rowTakeDims` are those dimension numbers at any extents and `gather_rowTake_apply` is the
  read.
-/
import Idealize.ShloMosaic.Lib.ValueIdx

namespace Cert.LibRowTake

open Idealize.ShloMosaic Idealize.ShloMosaic.ValueIdx

variable {α : Type}

/-- The dimension numbers of a row take: table `[N, D]`, start indices `[n, 1]`, result `[n, D]`; their conditions
    `wf` are decided on a program's literal shapes. -/
abbrev rowTakeDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- The row axis of the table is start-indexed and collapsed: its coordinate is the clamped start index alone. -/
theorem rowTake_coord0 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 0).val = min (idx (ix2 r (0 : Fin 1))).toInt.toNat (N - 1) := by
  show (rowTakeDims N D n wf).start (ix2 r c) idx 0 + (rowTakeDims N D n wf).batchCoord (ix2 r c) 0
      + (rowTakeDims N D n wf).offCoord (ix2 r c) 0 = _
  have hk : (0 : Fin 2) ∉ (rowTakeDims N D n wf).sKept := fun hm =>
    ((GatherDims.mem_sKept _ _).1 hm).1 (List.mem_singleton.2 rfl)
  rw [GatherDims.batchCoord_eq_zero _ _ _ List.not_mem_nil, GatherDims.offCoord_eq_zero _ _ _ hk]
  simp only [Nat.add_zero]
  have hm : (0 : Fin 2) ∈ (rowTakeDims N D n wf).startIndexMap := List.mem_singleton.2 rfl
  unfold GatherDims.start
  rw [dif_pos hm]
  have hsi : (rowTakeDims N D n wf).siIdx (ix2 r c) ⟨List.idxOf (0 : Fin 2) (rowTakeDims N D n wf).startIndexMap,
      List.idxOf_lt_length_iff.2 hm⟩ = ix2 r (0 : Fin 1) := by
    funext b
    refine Fin.ext ?_
    match b with
    | ⟨0, _⟩ => rfl
    | ⟨1, _⟩ => rfl
  rw [hsi]
  rfl

/-- The column axis of the table is the slice's one kept axis, not start-indexed: its coordinate is the result's
    offset coordinate alone. -/
theorem rowTake_coord1 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 1).val = c.val := by
  show (rowTakeDims N D n wf).start (ix2 r c) idx 1 + (rowTakeDims N D n wf).batchCoord (ix2 r c) 1
      + (rowTakeDims N D n wf).offCoord (ix2 r c) 1 = _
  have h10 : ¬ (1 : Fin 2) = 0 := fun e => absurd (congrArg Fin.val e) Nat.one_ne_zero
  have hm : (1 : Fin 2) ∉ (rowTakeDims N D n wf).startIndexMap := fun hm => h10 (List.mem_singleton.1 hm)
  have hs : (rowTakeDims N D n wf).start (ix2 r c) idx 1 = 0 := by
    unfold GatherDims.start
    rw [dif_neg hm]
  rw [hs, GatherDims.batchCoord_eq_zero _ _ _ List.not_mem_nil]
  simp only [Nat.zero_add]
  have hk : (1 : Fin 2) ∈ (rowTakeDims N D n wf).sKept :=
    (GatherDims.mem_sKept _ _).2 ⟨fun h => h10 (List.mem_singleton.1 h), List.not_mem_nil⟩
  unfold GatherDims.offCoord
  rw [dif_pos hk]
  rfl

/-- THE ROW TAKE READ AT `(r, c)`: the table at the row the start index `idx[r, 0]` names, read signed and clamped
    into `[0, N − 1]`, and column `c`. -/
theorem gather_rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (r : Fin n) (c : Fin D) :
    Host.gather (rowTakeDims N D n wf) x idx (ix2 r c)
      = x (ix2 ⟨min (idx (ix2 r (0 : Fin 1))).toInt.toNat (N - 1), by omega⟩ c) := by
  show x ((rowTakeDims N D n wf).operandIdx (ix2 r c) idx) = _
  congr 1
  funext a
  refine Fin.ext ?_
  match a with
  | ⟨0, _⟩ => exact rowTake_coord0 wf idx r c
  | ⟨1, _⟩ => exact rowTake_coord1 wf idx r c

end Cert.LibRowTake
-- ==== Proof.LibRowTake3.lean ====
/-
  A ROW TAKE PER POSITION read at an index.

  `table[idx]` for a rank-2 table `[N, D]` and an `[n, m]` array of row numbers lowers to a `stablehlo.gather` whose
  start indices are the `[n, m, 1]` array of row numbers: the table's row axis is collapsed and start-indexed, its
  column axis is the result's one offset axis (axis 2), a slice is one whole row (`slice_sizes = [1, D]`), and the
  index vector lies on axis 2 of the start indices. Result element `(r, p, c)` is then the table at row
  `idx[r, p, 0]`, read as a signed integer and clamped into `[0, N − 1]` (a negative row number reads row 0, one
  past the end the last row), and column `c`. `winTakeDims` are those dimension numbers at any extents (a printed
  record with the same numbers is it by `rfl`) and `gather_winTake_apply` is the read.
-/
import Idealize.ShloMosaic.Lib.ValueIdx

namespace Cert.LibRowTake3

open Idealize.ShloMosaic Idealize.ShloMosaic.ValueIdx

/-- The dimension numbers of a row take with start indices `[n, m, 1]`: table `[N, D]`, result `[n, m, D]`. -/
abbrev winTakeDims (N D n m : Nat)
    (wf : GatherDims.WF ⟨2, ![N, D]⟩ ⟨3, ![n, m, 1]⟩ ⟨3, ![n, m, D]⟩ [2] [0] [] [0] [] 2 ![1, D]) :
    GatherDims ⟨2, ![N, D]⟩ ⟨3, ![n, m, 1]⟩ ⟨3, ![n, m, D]⟩ where
  offsetDims := [2]
  collapsedSliceDims := [0]
  operandBatchingDims := []
  startIndicesBatchingDims := []
  startIndexMap := [0]
  indexVectorDim := 2
  sliceSizes := ![1, D]
  wf := wf

/-- The table's row axis is start-indexed and collapsed: its coordinate is the clamped start index alone. -/
theorem winTake_coord0 {N D n m w : Nat}
    (wf : GatherDims.WF ⟨2, ![N, D]⟩ ⟨3, ![n, m, 1]⟩ ⟨3, ![n, m, D]⟩ [2] [0] [] [0] [] 2 ![1, D])
    (idx : IVec ⟨3, ![n, m, 1]⟩ w) (r : Fin n) (p : Fin m) (c : Fin D) :
    ((winTakeDims N D n m wf).operandIdx (ix3 r p c) idx 0).val
      = min (idx (ix3 r p (0 : Fin 1))).toInt.toNat (N - 1) := by
  show (winTakeDims N D n m wf).start (ix3 r p c) idx 0 + (winTakeDims N D n m wf).batchCoord (ix3 r p c) 0
      + (winTakeDims N D n m wf).offCoord (ix3 r p c) 0 = _
  have hk : (0 : Fin 2) ∉ (winTakeDims N D n m wf).sKept := fun hm =>
    ((GatherDims.mem_sKept _ _).1 hm).1 (List.mem_singleton.2 rfl)
  rw [GatherDims.batchCoord_eq_zero _ _ _ List.not_mem_nil, GatherDims.offCoord_eq_zero _ _ _ hk]
  simp only [Nat.add_zero]
  have hm : (0 : Fin 2) ∈ (winTakeDims N D n m wf).startIndexMap := List.mem_singleton.2 rfl
  unfold GatherDims.start
  rw [dif_pos hm]
  have hsi : (winTakeDims N D n m wf).siIdx (ix3 r p c) ⟨List.idxOf (0 : Fin 2) (winTakeDims N D n m wf).startIndexMap,
      List.idxOf_lt_length_iff.2 hm⟩ = ix3 r p (0 : Fin 1) := by
    funext b
    refine Fin.ext ?_
    match b with
    | ⟨0, _⟩ => rfl
    | ⟨1, _⟩ => rfl
    | ⟨2, _⟩ => rfl
  rw [hsi]
  rfl

/-- The table's column axis is the slice's one kept axis: its coordinate is the result's offset coordinate. -/
theorem winTake_coord1 {N D n m w : Nat}
    (wf : GatherDims.WF ⟨2, ![N, D]⟩ ⟨3, ![n, m, 1]⟩ ⟨3, ![n, m, D]⟩ [2] [0] [] [0] [] 2 ![1, D])
    (idx : IVec ⟨3, ![n, m, 1]⟩ w) (r : Fin n) (p : Fin m) (c : Fin D) :
    ((winTakeDims N D n m wf).operandIdx (ix3 r p c) idx 1).val = c.val := by
  show (winTakeDims N D n m wf).start (ix3 r p c) idx 1 + (winTakeDims N D n m wf).batchCoord (ix3 r p c) 1
      + (winTakeDims N D n m wf).offCoord (ix3 r p c) 1 = _
  have h10 : ¬ (1 : Fin 2) = 0 := fun e => absurd (congrArg Fin.val e) Nat.one_ne_zero
  have hm : (1 : Fin 2) ∉ (winTakeDims N D n m wf).startIndexMap := fun hm => h10 (List.mem_singleton.1 hm)
  have hs : (winTakeDims N D n m wf).start (ix3 r p c) idx 1 = 0 := by
    unfold GatherDims.start
    rw [dif_neg hm]
  rw [hs, GatherDims.batchCoord_eq_zero _ _ _ List.not_mem_nil]
  simp only [Nat.zero_add]
  have hk : (1 : Fin 2) ∈ (winTakeDims N D n m wf).sKept :=
    (GatherDims.mem_sKept _ _).2 ⟨fun h => h10 (List.mem_singleton.1 h), List.not_mem_nil⟩
  unfold GatherDims.offCoord
  rw [dif_pos hk]
  rfl

/-- The row take read at `(r, p, c)`: the table at the row the start index `idx[r, p, 0]` names, read signed and
    clamped into `[0, N − 1]`, and column `c`. -/
theorem gather_winTake_apply {α : Type} {N D n m w : Nat} (hN : 0 < N)
    (wf : GatherDims.WF ⟨2, ![N, D]⟩ ⟨3, ![n, m, 1]⟩ ⟨3, ![n, m, D]⟩ [2] [0] [] [0] [] 2 ![1, D])
    (x : (⟨2, ![N, D]⟩ : Shape).Idx → α) (idx : IVec ⟨3, ![n, m, 1]⟩ w) (r : Fin n) (p : Fin m) (c : Fin D) :
    Host.gather (winTakeDims N D n m wf) x idx (ix3 r p c)
      = x (ix2 ⟨min (idx (ix3 r p (0 : Fin 1))).toInt.toNat (N - 1), by omega⟩ c) := by
  show x ((winTakeDims N D n m wf).operandIdx (ix3 r p c) idx) = _
  congr 1
  funext a
  refine Fin.ext ?_
  match a with
  | ⟨0, _⟩ => exact winTake_coord0 wf idx r p c
  | ⟨1, _⟩ => exact winTake_coord1 wf idx r p c

end Cert.LibRowTake3
-- ==== Proof.RefRead.lean ====
/-
  The reference's result, read one operation at a time, is `Spec.G` of the arguments when every token is a row
  number of the embedding table: a non-negative token is not wrapped, the row it selects is inside the table, the
  sum over the window's eight rows and the division by eight are the second half of the concatenation, and the two
  matrix products, the biases and the maximum with zero are the formula's.
-/
import proofs.«403954_j77068893160211_3_alg».proof.Proof.Gen.ReferenceIdeal.Read
import proofs.«403954_j77068893160211_3_alg».proof.Proof.Spec
import proofs.«403954_j77068893160211_3_alg».proof.Proof.LibRowTake
import proofs.«403954_j77068893160211_3_alg».proof.Proof.LibRowTake3
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec
open Cert.LibRowTake3

/-! ## Tokens -/

/-- A non-negative word is not below zero. -/
theorem cmpi_slt_zero_of_nonneg (x : BitVec 32) (h : 0 ≤ x.toInt) : IntOp.cmpi .slt x 0#32 = 0#1 := by
  have hs : x.slt 0#32 = false := by
    rw [Bool.eq_false_iff]
    intro hs
    rw [BitVec.slt_iff_toInt_lt] at hs
    have h0 : (0#32 : BitVec 32).toInt = 0 := by decide
    omega
  show BitVec.ofBool (x.slt 0#32) = 0#1
  rw [hs]
  rfl

/-- A window token in range is passed on unwrapped. -/
theorem v5_read (x0 : IVec S524288x64 32) (r : Fin 524288) (n : Fin 8) (h : InRange (wTok x0 r n)) :
    val_main_v5 (F := Ideal) x0 (ix2 r n) = wTok x0 r n := by
  have e0 : val_main_v0 (F := Ideal) x0 (ix2 r n) = wTok x0 r n := by
    rw [val_main_v0_apply]
    exact congrArg x0 (funext fun a => Fin.ext (by match a with | ⟨0, _⟩ => rfl | ⟨1, _⟩ => rfl))
  rw [val_main_v5_apply, val_main_v2_apply, val_main_v1_apply, val_main_c_apply, e0,
    cmpi_slt_zero_of_nonneg _ h.1, select_zero]

/-- The start index at `(r, n, 0)` is the `n`-th window token of row `r`. -/
theorem v6_read (x0 : IVec S524288x64 32) (r : Fin 524288) (n : Fin 8) (h : InRange (wTok x0 r n)) :
    val_main_v6 (F := Ideal) x0 (ix3 r n (0 : Fin 1)) = wTok x0 r n := by
  rw [val_main_v6_apply]
  have e : idx_main_v6 (ix3 r n (0 : Fin 1)) = ix2 r n :=
    funext fun a => Fin.ext (by match a with | ⟨0, _⟩ => rfl | ⟨1, _⟩ => rfl)
  rw [e]
  exact v5_read x0 r n h

/-- A query token in range is passed on unwrapped. -/
theorem v15_read (x1 : IVec S524288 32) (r : Fin 524288) (h : InRange (qTok x1 r)) :
    val_main_v15 (F := Ideal) x1 (ix1 r) = qTok x1 r := by
  rw [val_main_v15_apply, val_main_v12_apply, val_main_v11_apply, val_main_c_2_apply]
  show Scalar.select (IntOp.cmpi .slt (qTok x1 r) 0#32) _ (qTok x1 r) = qTok x1 r
  rw [cmpi_slt_zero_of_nonneg _ h.1, select_zero]

/-- The start index at `(r, 0)` is the query token of row `r`. -/
theorem v16_read (x1 : IVec S524288 32) (r : Fin 524288) (h : InRange (qTok x1 r)) :
    val_main_v16 (F := Ideal) x1 (ix2 r (0 : Fin 1)) = qTok x1 r := by
  rw [val_main_v16_apply]
  have e : idx_main_v16 (ix2 r (0 : Fin 1)) = ix1 r :=
    funext fun a => Fin.ext (by match a with | ⟨0, _⟩ => rfl)
  rw [e]
  exact v15_read x1 r h

/-! ## The two table look-ups -/

/-- The window's look-up at `(r, n, c)` is the table at the row the `n`-th window token selects, column `c`. -/
theorem v7_read (x0 : IVec S524288x64 32) (x2 : FVec Ideal S66x64 .f32) (r : Fin 524288) (n : Fin 8) (c : Fin 64)
    (h : InRange (wTok x0 r n)) :
    val_main_v7 (F := Ideal) x0 x2 (ix3 r n c) = matE x2 (rowOf (wTok x0 r n)) c := by
  unfold val_main_v7
  refine (gather_winTake_apply (N := 66) (D := 64) (n := 524288) (m := 8) (by decide)
    gather_S66x64_S524288x8x1_S524288x8x64_2_0_n_n_0_2_164.wf x2 (val_main_v6 (F := Ideal) x0) r n c).trans ?_
  refine congrArg x2 (congrArg (fun q => ix2 q c) (Fin.ext ?_))
  show min (val_main_v6 (F := Ideal) x0 (ix3 r n (0 : Fin 1))).toInt.toNat (66 - 1) = min (wTok x0 r n).toInt.toNat 65
  rw [v6_read x0 r n h]

/-- The query's look-up at `(r, c)` is the table at the row the query token selects, column `c`. -/
theorem v17_read (x1 : IVec S524288 32) (x2 : FVec Ideal S66x64 .f32) (r : Fin 524288) (c : Fin 64)
    (h : InRange (qTok x1 r)) :
    val_main_v17 (F := Ideal) x1 x2 (ix2 r c) = matE x2 (rowOf (qTok x1 r)) c := by
  unfold val_main_v17
  refine (Cert.LibRowTake.gather_rowTake_apply (N := 66) (D := 64) (n := 524288) (by decide)
    gather_S66x64_S524288x1_S524288x64_1_0_n_n_0_1_164.wf x2 (val_main_v16 (F := Ideal) x1) r c).trans ?_
  refine congrArg x2 (congrArg (fun q => ix2 q c) (Fin.ext ?_))
  show min (val_main_v16 (F := Ideal) x1 (ix2 r (0 : Fin 1))).toInt.toNat (66 - 1) = min (qTok x1 r).toInt.toNat 65
  rw [v16_read x1 r h]

/-! ## The window's mean -/

theorem v8_read (x0 : IVec S524288x64 32) (x2 : FVec Ideal S66x64 .f32) (r : Fin 524288) (c : Fin 64)
    (h : ∀ n : Fin 8, InRange (wTok x0 r n)) :
    val_main_v8 (F := Ideal) x0 x2 (ix2 r c) = 0 + ∑ n : Fin 8, matE x2 (rowOf (wTok x0 r n)) c := by
  rw [val_main_v8_apply, val_main_cst_apply]
  refine congrArg₂ (· + ·) Ideal.ofBits_zero_f32 (Finset.sum_congr rfl fun n _ => ?_)
  have e : idx_main_v8 (ix2 r c) n = ix3 r n c :=
    funext fun a => Fin.ext (by match a with | ⟨0, _⟩ => rfl | ⟨1, _⟩ => rfl | ⟨2, _⟩ => rfl)
  rw [e]
  exact v7_read x0 x2 r n c (h n)

/-- The window's sum divided by eight. -/
theorem v10_read (x0 : IVec S524288x64 32) (x2 : FVec Ideal S66x64 .f32) (r : Fin 524288) (c : Fin 64)
    (h : ∀ n : Fin 8, InRange (wTok x0 r n)) :
    val_main_v10 (F := Ideal) x0 x2 (ix2 r c)
      = Ideal.div (0 + ∑ n : Fin 8, matE x2 (rowOf (wTok x0 r n)) c) eight := by
  rw [val_main_v10_apply, Ideal.hostDivf_def, v8_read x0 x2 r c h, val_main_v9_apply, val_main_cst_1_apply]
  rfl

/-! ## The concatenation -/

theorem v18_read_left (x0 : IVec S524288x64 32) (x1 : IVec S524288 32) (x2 : FVec Ideal S66x64 .f32)
    (r : Fin 524288) (κ : Fin 128) (h : κ.val < 64) :
    val_main_v18 (F := Ideal) x0 x1 x2 (ix2 r κ) = val_main_v17 (F := Ideal) x1 x2 (ix2 r (⟨κ.val, h⟩ : Fin 64)) := by
  unfold val_main_v18
  exact concatenate_pair_apply_left (t := S524288x128) (s₁ := S524288x64) (s₂ := S524288x64) (1 : Fin 2)
    (val_main_v17 (F := Ideal) x1 x2) (val_main_v10 (F := Ideal) x0 x2)
    concatenates_S524288x64_S524288x64_S524288x128_d1 (ix2 r κ) rfl
    (ix2 r (⟨κ.val, h⟩ : Fin 64)) (fun b => by match b with | ⟨0, _⟩ => rfl | ⟨1, _⟩ => rfl)

/-- From position 64 on the concatenation is the window's mean, 64 positions back. -/
theorem v18_read_right (x0 : IVec S524288x64 32) (x1 : IVec S524288 32) (x2 : FVec Ideal S66x64 .f32)
    (r : Fin 524288) (κ : Fin 128) (h : ¬ κ.val < 64) :
    val_main_v18 (F := Ideal) x0 x1 x2 (ix2 r κ)
      = val_main_v10 (F := Ideal) x0 x2 (ix2 r (⟨κ.val - 64, by omega⟩ : Fin 64)) := by
  unfold val_main_v18
  refine concatenate_pair_apply_right (t := S524288x128) (s₁ := S524288x64) (s₂ := S524288x64) (1 : Fin 2)
    (val_main_v17 (F := Ideal) x1 x2) (val_main_v10 (F := Ideal) x0 x2)
    concatenates_S524288x64_S524288x64_S524288x128_d1 (ix2 r κ) rfl rfl
    (ix2 r (⟨κ.val - 64, by omega⟩ : Fin 64)) (fun b hb => ?_) ?_
  · match b, hb with
    | ⟨0, _⟩, _ => rfl
    | ⟨1, _⟩, hb => exact absurd rfl hb
  · show κ.val - 64 + 64 = κ.val
    omega

/-- The first layer's 128 inputs of row `r`. -/
theorem v18_read (x0 : IVec S524288x64 32) (x1 : IVec S524288 32) (x2 : FVec Ideal S66x64 .f32)
    (r : Fin 524288) (κ : Fin 128) (hW : ∀ n : Fin 8, InRange (wTok x0 r n)) (hQ : InRange (qTok x1 r)) :
    val_main_v18 (F := Ideal) x0 x1 x2 (ix2 r κ) = rCat (matE x2) (qTok x1 r) (wTok x0 r) κ := by
  unfold rCat
  by_cases h : κ.val < 64
  · rw [dif_pos h, v18_read_left x0 x1 x2 r κ h, v17_read x1 x2 r _ hQ]
  · rw [dif_neg h, v18_read_right x0 x1 x2 r κ h, v10_read x0 x2 r _ hW]

/-! ## The two layers -/

theorem v20_read (x0 : IVec S524288x64 32) (x1 : IVec S524288 32) (x2 : FVec Ideal S66x64 .f32)
    (x3 : FVec Ideal S64x128 .f32) (r : Fin 524288) (k : Fin 64)
    (hW : ∀ n : Fin 8, InRange (wTok x0 r n)) (hQ : InRange (qTok x1 r)) :
    val_main_v20 (F := Ideal) x0 x1 x2 x3 (ix2 r k)
      = ∑ κ : Fin 128, rCat (matE x2) (qTok x1 r) (wTok x0 r) κ * matW1 x3 k κ := by
  rw [val_main_v20_apply]
  refine Finset.sum_congr rfl fun κ _ => ?_
  have el : lidx_main_v20 (ix2 r k) κ = ix2 r κ :=
    funext fun a => Fin.ext (by match a with | ⟨0, _⟩ => rfl | ⟨1, _⟩ => rfl)
  have er : idx_main_v19 (ridx_main_v20 (ix2 r k) κ) = ix2 k κ :=
    funext fun a => Fin.ext (by match a with | ⟨0, _⟩ => rfl | ⟨1, _⟩ => rfl)
  rw [el, v18_read x0 x1 x2 r κ hW hQ, val_main_v19_apply, er]
  rfl

/-- The first bias, the same on every row. -/
theorem v22_read (x4 : FVec Ideal S64 .f32) (r : Fin 524288) (k : Fin 64) :
    val_main_v22 (F := Ideal) x4 (ix2 r k) = vecB x4 k := by
  rw [val_main_v22_apply, val_main_v21_apply]
  exact congrArg x4 (funext fun a => Fin.ext (by match a with | ⟨0, _⟩ => rfl))

/-- The second bias, the same on every row. -/
theorem v28_read (x6 : FVec Ideal S64 .f32) (r : Fin 524288) (j : Fin 64) :
    val_main_v28 (F := Ideal) x6 (ix2 r j) = vecB x6 j := by
  rw [val_main_v28_apply, val_main_v27_apply]
  exact congrArg x6 (funext fun a => Fin.ext (by match a with | ⟨0, _⟩ => rfl))

/-- Hidden unit `k` of row `r`. -/
theorem v24_read (x0 : IVec S524288x64 32) (x1 : IVec S524288 32) (x2 : FVec Ideal S66x64 .f32)
    (x3 : FVec Ideal S64x128 .f32) (x4 : FVec Ideal S64 .f32) (r : Fin 524288) (k : Fin 64)
    (hW : ∀ n : Fin 8, InRange (wTok x0 r n)) (hQ : InRange (qTok x1 r)) :
    val_main_v24 (F := Ideal) x0 x1 x2 x3 x4 (ix2 r k)
      = rHid (matE x2) (matW1 x3) (vecB x4) (qTok x1 r) (wTok x0 r) k := by
  rw [val_main_v24_apply, val_main_v23_apply, v20_read x0 x1 x2 x3 r k hW hQ, v22_read x4 r k,
    val_main_call0_v0_apply, val_main_call0_cst_apply]
  show max (_ + _) (Ideal.ofBits .f32 0x00000000#32) = _
  rw [Ideal.ofBits_zero_f32]
  rfl

/-- The second layer's product: the sum over the 64 hidden units against row `j` of `W2`. -/
theorem v26_read (x0 : IVec S524288x64 32) (x1 : IVec S524288 32) (x2 : FVec Ideal S66x64 .f32)
    (x3 : FVec Ideal S64x128 .f32) (x4 : FVec Ideal S64 .f32) (x5 : FVec Ideal S64x64 .f32) (r : Fin 524288) (j : Fin 64)
    (hW : ∀ n : Fin 8, InRange (wTok x0 r n)) (hQ : InRange (qTok x1 r)) :
    val_main_v26 (F := Ideal) x0 x1 x2 x3 x4 x5 (ix2 r j)
      = ∑ k : Fin 64, rHid (matE x2) (matW1 x3) (vecB x4) (qTok x1 r) (wTok x0 r) k * matW2 x5 j k := by
  rw [val_main_v26_apply]
  refine Finset.sum_congr rfl fun k _ => ?_
  have el : lidx_main_v26 (ix2 r j) k = ix2 r k :=
    funext fun a => Fin.ext (by match a with | ⟨0, _⟩ => rfl | ⟨1, _⟩ => rfl)
  have er : idx_main_v25 (ridx_main_v26 (ix2 r j) k) = ix2 j k :=
    funext fun a => Fin.ext (by match a with | ⟨0, _⟩ => rfl | ⟨1, _⟩ => rfl)
  rw [el, v24_read x0 x1 x2 x3 x4 r k hW hQ, val_main_v25_apply, er]
  rfl

/-- The reference's last stage is `Spec.G`. -/
theorem ref_eq_G (x0 : IVec S524288x64 32) (x1 : IVec S524288 32) (x2 : FVec Ideal S66x64 .f32) (x3 : FVec Ideal S64x128 .f32)
    (x4 : FVec Ideal S64 .f32) (x5 : FVec Ideal S64x64 .f32) (x6 : FVec Ideal S64 .f32)
    (hW : ∀ (r : Fin 524288) (n : Fin 8), InRange (wTok x0 r n)) (hQ : ∀ r : Fin 524288, InRange (qTok x1 r)) :
    val_main_v29 (F := Ideal) x0 x1 x2 x3 x4 x5 x6 = Cert.Spec.G x0 x1 x2 x3 x4 x5 x6 := by
  funext i
  obtain ⟨r, j, rfl⟩ : ∃ (r : Fin 524288) (j : Fin 64), i = ix2 r j := ⟨i 0, i 1, eq_ix2 i⟩
  rw [val_main_v29_apply, v26_read x0 x1 x2 x3 x4 x5 r j (hW r) (hQ r), v28_read x6 r j]
  rfl

end Cert.ReferenceIdeal.RefValue

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.Payload.lean ====
/-
  What the kernel body leaves in the output block, read at an entry: row `p`'s logit `j`, the one-hot way, from
  the entries of the seven input blocks.

  The body builds, on each of 128 lanes, the lane's number; a count that gains one, window token by window token,
  where the lane's number equals the token; and the query's indicator. Two products with the 128-row tables give
  the hidden layer before the bias; the bias, the maximum with zero and a third product with the transposed second
  layer give the logits. Every product is a plain sum over its contracted axis here, and a change of float format
  is the identity, so the entry is `Spec.kOut` of the block entries.
-/
import proofs.«403954_j77068893160211_3_alg».proof.Proof.Gen.KernelIdeal.Frame
import proofs.«403954_j77068893160211_3_alg».proof.Proof.Spec
import proofs.«403954_j77068893160211_3_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Spec

/-- The bf16 pattern 0x3F80 is one. -/
theorem one_bf16 : Ideal.ofBits .bf16 0x3F80#16 = 1 := by
  simp [Ideal.ofBits, Ideal.ieee, -EReal.coe_mul]
  norm_num

/-- The bf16 pattern 0x0000 is zero. -/
theorem zero_bf16 : Ideal.ofBits .bf16 0x0000#16 = 0 := by
  simp [Ideal.ofBits, Ideal.ieee]

/-- A column laid across the 128 lanes reads, at (p, v), the column at p. -/
theorem lanes_of_col {α : Type} (x : S8192x1.Idx → α) (p : Fin 8192) (v : Fin 128) :
    broadcastTo S8192x128 x broadcasts_S8192x1_S8192x128 (ix2 p v) = x (ix2 p (0 : Fin 1)) :=
  broadcastTo_apply x broadcasts_S8192x1_S8192x128 (ix2 p v) (ix2 p (0 : Fin 1)) (fun a => by
    match a with
    | ⟨0, _⟩ => rfl
    | ⟨1, _⟩ => rfl)

/-- The lane numbers. -/
theorem pay2_apply (p : Fin 8192) (v : Fin 128) : k0_pay2 (F := Ideal) (ix2 p v) = laneE v := by
  unfold k0_pay2
  show FloatOps.sitofp (F := Ideal) .bf16 (iota .tc S8192x128 32 [1] iota_S8192x128_d1_w32 (ix2 p v)) = _
  rw [iota_single_apply]
  rfl

/-- One step of the count at a lane. -/
theorem bump_apply (lanes c : FVec Ideal S8192x128 .bf16) (col : Vec Ideal S8192x1 .i32) (p : Fin 8192) (v : Fin 128) :
    select (cmpf .oeq lanes (broadcastTo S8192x128 (sitofp (F := Ideal) .bf16 col) broadcasts_S8192x1_S8192x128))
        (addf c (broadcast S8192x128 (Scalar.ofBits (F := Ideal) .bf16 0x3F80#16))) c (ix2 p v)
      = bump (lanes (ix2 p v)) (tokE (col (ix2 p (0 : Fin 1)))) (c (ix2 p v)) := by
  rw [select_apply, cmpf_apply, lanes_of_col]
  show Scalar.select (Ideal.cmp .oeq (lanes (ix2 p v)) (tokE (col (ix2 p (0 : Fin 1))))) (c (ix2 p v) + Ideal.ofBits .bf16 0x3F80#16) (c (ix2 p v)) = _
  rw [one_bf16]
  unfold bump Scalar.select Ideal.cmp
  by_cases h : lanes (ix2 p v) = tokE (col (ix2 p (0 : Fin 1)))
  · simp [h]
  · simp [h]

/-- A column of tokens, made numbers and laid across the lanes, reads at (p, v) row p's token. -/
theorem tok_lanes (col : Vec Ideal S8192x1 .i32) (p : Fin 8192) (v : Fin 128) :
    broadcastTo S8192x128 (sitofp (F := Ideal) .bf16 col) broadcasts_S8192x1_S8192x128 (ix2 p v) = tokE (col (ix2 p (0 : Fin 1))) := by
  rw [lanes_of_col]
  rfl

/-- One step of the count at a lane, the token already laid across the lanes. -/
theorem bumpv_apply (lanes t c : FVec Ideal S8192x128 .bf16) (i : S8192x128.Idx) :
    select (cmpf .oeq lanes t) (addf c (broadcast S8192x128 (Scalar.ofBits (F := Ideal) .bf16 0x3F80#16))) c i
      = bump (lanes i) (t i) (c i) := by
  rw [select_apply, cmpf_apply]
  show Scalar.select (Ideal.cmp .oeq (lanes i) (t i)) (c i + Ideal.ofBits .bf16 0x3F80#16) (c i) = _
  rw [one_bf16]
  unfold bump Scalar.select Ideal.cmp
  by_cases h : lanes i = t i
  · simp [h]
  · simp [h]

/-- The count starts from zero on every lane. -/
theorem zero_lanes (i : S8192x128.Idx) : broadcast S8192x128 (Scalar.ofBits (F := Ideal) .bf16 0x0000#16) i = 0 :=
  zero_bf16

/-- The count after the first five window tokens. -/
theorem pay3_apply (v3 v10 v17 v24 v31 : Vec Ideal S8192x1 .i32) (p : Fin 8192) (v : Fin 128) :
    k0_pay3 (F := Ideal) v3 v10 v17 v24 v31 (ix2 p v)
      = bump (laneE v) (tokE (v31 (ix2 p (0 : Fin 1)))) (bump (laneE v) (tokE (v24 (ix2 p (0 : Fin 1))))
          (bump (laneE v) (tokE (v17 (ix2 p (0 : Fin 1)))) (bump (laneE v) (tokE (v10 (ix2 p (0 : Fin 1))))
            (bump (laneE v) (tokE (v3 (ix2 p (0 : Fin 1)))) 0)))) := by
  unfold k0_pay3
  rw [bump_apply, bump_apply, bump_apply, bump_apply, bump_apply, pay2_apply]
  rw [zero_lanes]

/-- The sixth window token laid across the lanes. -/
theorem pay4_apply (v38 : Vec Ideal S8192x1 .i32) (p : Fin 8192) (v : Fin 128) :
    k0_pay4 (F := Ideal) v38 (ix2 p v) = tokE (v38 (ix2 p (0 : Fin 1))) := by
  unfold k0_pay4
  rw [lanes_of_col]
  rfl

/-- The query's indicator as the kernel makes it: the compare's bit widened to a word, read as a number. -/
theorem oh_apply (lanes : FVec Ideal S8192x128 .bf16) (col : IVec S8192x1 32) (p : Fin 8192) (v : Fin 128) :
    truncf .bf16 (sitofp (F := Ideal) .f32 (extui 32 (cmpf .oeq lanes (broadcastTo S8192x128 (sitofp (F := Ideal) .bf16 col) broadcasts_S8192x1_S8192x128)) natLt_1_32)) bitsLt_bf16_f32 (ix2 p v)
      = if lanes (ix2 p v) = tokE (col (ix2 p (0 : Fin 1))) then 1 else 0 := by
  show ((((Ideal.cmp .oeq (lanes (ix2 p v)) (broadcastTo S8192x128 (sitofp (F := Ideal) .bf16 col) broadcasts_S8192x1_S8192x128 (ix2 p v))).setWidth 32).toInt : ℝ) : EReal) = _
  rw [lanes_of_col]
  show ((((Ideal.cmp .oeq (lanes (ix2 p v)) (tokE (col (ix2 p (0 : Fin 1))))).setWidth 32).toInt : ℝ) : EReal) = _
  unfold Ideal.cmp
  by_cases h : lanes (ix2 p v) = tokE (col (ix2 p (0 : Fin 1)))
  · simp [h]
  · simp [h]

/-- A row laid down the 8192 rows reads, at (p, k), the row at k. -/
theorem rows_of_row {α : Type} (x : S1x64.Idx → α) (p : Fin 8192) (k : Fin 64) :
    broadcastTo S8192x64 x broadcasts_S1x64_S8192x64 (ix2 p k) = x (ix2 (0 : Fin 1) k) :=
  broadcastTo_apply x broadcasts_S1x64_S8192x64 (ix2 p k) (ix2 (0 : Fin 1) k) (fun a => by
    match a with
    | ⟨0, _⟩ => rfl
    | ⟨1, _⟩ => rfl)

/-- The printed 8192×128 by 128×64 product contracts the last axis with the first. -/
theorem dot128_plain : dot_S8192x128_S128x64_S8192x64_1_0_0_1_n_n = DotDims.plain 8192 128 64 := rfl

/-- The printed 8192×64 by 64×64 product contracts the last axis with the first. -/
theorem dot64_plain : dot_S8192x64_S64x64_S8192x64_1_0_0_1_n_n = DotDims.plain 8192 64 64 := rfl

/-- The hidden layer of row p at unit k. -/
theorem pay5_apply (v1 v37 v40 : FVec Ideal S8192x128 .bf16) (v45 v52 v59 : Vec Ideal S8192x1 .i32) (v67 v69 : Vec Ideal S128x64 .bf16)
    (v74 : Vec Ideal S1x64 .f32) (p : Fin 8192) (k : Fin 64) :
    k0_pay5 (F := Ideal) v1 v37 v40 v45 v52 v59 v67 v69 v74 (ix2 p k)
      = max (((∑ v : Fin 128, (if v1 (ix2 p v) = tokE (v59 (ix2 p (0 : Fin 1))) then (1 : EReal) else 0) * v67 (ix2 v k))
            + (∑ v : Fin 128, bump (v1 (ix2 p v)) (tokE (v52 (ix2 p (0 : Fin 1)))) (bump (v1 (ix2 p v)) (tokE (v45 (ix2 p (0 : Fin 1))))
                (bump (v1 (ix2 p v)) (v40 (ix2 p v)) (v37 (ix2 p v)))) * v69 (ix2 v k)))
          + v74 (ix2 (0 : Fin 1) k)) 0 := by
  unfold k0_pay5
  simp only [shapeCast_self]
  simp only [matmul]
  rw [maximumf_apply, addf_apply, addf_apply, dot128_plain, MatmulAt.matmul_plain_apply, MatmulAt.matmul_plain_apply, rows_of_row]
  simp only [oh_apply, bumpv_apply, tok_lanes]
  show max _ (Ideal.ofBits .f32 0x00000000#32) = _
  rw [Ideal.ofBits_zero_f32]

/-- Logit j of row p from the hidden layer. -/
theorem pay1_apply (v79 : FVec Ideal S8192x64 .f32) (v80 : Vec Ideal S64x64 .bf16) (v84 : Vec Ideal S1x64 .f32) (p : Fin 8192) (j : Fin 64) :
    k0_pay1 (F := Ideal) v79 v80 v84 (ix2 p j) = (∑ k : Fin 64, v79 (ix2 p k) * v80 (ix2 k j)) + v84 (ix2 (0 : Fin 1) j) := by
  unfold k0_pay1
  simp only [shapeCast_self]
  simp only [matmul]
  rw [addf_apply, dot64_plain, MatmulAt.matmul_plain_apply, rows_of_row]
  rfl

/-- The offsets (0, 0), however spelt, are zero on both axes. -/
theorem off00 : (![0, 0] : Fin 2 → Nat) = fun _ => 0 := by
  funext a
  match a with
  | ⟨0, _⟩ => rfl
  | ⟨1, _⟩ => rfl

/-- A load of column c of the token block reads, at row p, the block at (p, c). -/
theorem ld_col (x0 : Vec Ideal S8192x64 .i32) (c : Nat) (hc : c < 64) (inb : ∀ a, (![0, c] : Fin 2 → Nat) a + S8192x1.size a ≤ S8192x64.size a)
    (p : Fin 8192) :
    View.ld x0 (Rect.unit (s := S8192x64) ![0, c] S8192x1.size inb) (ix2 p (0 : Fin 1)) = x0 (ix2 p ⟨c, hc⟩) := by
  show x0 _ = x0 _
  congr 1
  funext a
  refine Fin.ext ?_
  match a with
  | ⟨0, _⟩ => show 0 + 1 * p.val = p.val; omega
  | ⟨1, _⟩ => show c + 1 * 0 = c; omega

/-- Entry `(p, j)` of the output block. -/
theorem out_apply (x0 : Vec Ideal S8192x64 .i32) (x1 : Vec Ideal S8192x1 .i32) (x2 x3 : Vec Ideal S128x64 .bf16)
    (x4 : Vec Ideal S1x64 .f32) (x5 : Vec Ideal S64x64 .bf16) (x6 : Vec Ideal S1x64 .f32) (p : Fin 8192) (j : Fin 64) :
    out0_7 x0 x1 x2 x3 x4 x5 x6 (ix2 p j)
      = kOut (x1 (ix2 p (0 : Fin 1))) (fun n => x0 (ix2 p (winCol n))) (fun v k => x2 (ix2 v k)) (fun v k => x3 (ix2 v k))
          (fun k => x4 (ix2 (0 : Fin 1) k)) (fun k j => x5 (ix2 k j)) (fun j => x6 (ix2 (0 : Fin 1) j)) j := by
  unfold out0_7
  rw [View.canon_unit_zero off00]
  simp only [View.ld_unit_zero (S := S8192x1) off00, View.ld_unit_zero (S := S128x64) off00, View.ld_unit_zero (S := S1x64) off00,
    View.ld_unit_zero (S := S64x64) off00]
  rw [pay1_apply]
  simp only [pay5_apply, pay2_apply, pay3_apply, pay4_apply, ld_col x0 55 (by omega), ld_col x0 56 (by omega), ld_col x0 57 (by omega),
    ld_col x0 58 (by omega), ld_col x0 59 (by omega), ld_col x0 60 (by omega), ld_col x0 61 (by omega), ld_col x0 62 (by omega)]
  rfl

end Cert.KernelIdeal.Payload

end
-- ==== Proof.Blocks.lean ====
/-
  From blocks to the array. Grid point `t` of the 64 writes rows `8192 t … 8192 t + 8191` of the output; the token
  blocks it reads are the same rows of the token arrays, and the two tables, the transposed second layer and the
  biases are read whole at every point. So what a point writes back is its block of ONE function of the arrays the
  region finds: row `r`'s logits the one-hot way from row `r`'s tokens. The 64 blocks cover every row.
-/
import proofs.«403954_j77068893160211_3_alg».proof.Proof.Gen.KernelIdeal.Value
import proofs.«403954_j77068893160211_3_alg».proof.Proof.Payload

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Spec

variable (m : (ℓ : Loc nD τ sig) → Buf (Elt Ideal) ℓ) (ρ : Dev nD → PrngReg)

/-- The output array as one function of the arrays the region finds. -/
def GV (c : Dev nD) : S524288x64.Idx → EReal := fun i =>
  kOut ((V m c main_v0 : S524288x1.Idx → BitVec 32) (ix2 (i 0) (0 : Fin 1)))
    (fun n => (V m c main_arg0 : S524288x64.Idx → BitVec 32) (ix2 (i 0) (winCol n)))
    (fun v k => (V m c main_v6 : S128x64.Idx → EReal) (ix2 v k))
    (fun v k => (V m c main_v10 : S128x64.Idx → EReal) (ix2 v k))
    (fun k => (V m c main_v13 : S1x64.Idx → EReal) (ix2 (0 : Fin 1) k))
    (fun k j => (V m c main_v12 : S64x64.Idx → EReal) (ix2 k j))
    (fun j => (V m c main_v14 : S1x64.Idx → EReal) (ix2 (0 : Fin 1) j)) (i 1)

/-- The printed index maps over the 64 points: the token windows and the output move down one block of rows per
    point; the resident windows stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem N64 : cfg0.N = 64 := N_0

/-- Row `8192 t + p` of the batch. -/
def rowAt (t : Fin cfg0.N) (p : Fin 8192) : Fin 524288 := ⟨t.val * 8192 + p.val, by have h1 := t.isLt; have h2 := N64; have h3 := p.isLt; omega⟩

/-- The token block at point t is rows 8192 t … of the token array. -/
theorem blk0_apply (c : Dev nD) (t : Fin cfg0.N) (p : Fin 8192) (col : Fin 64) :
    iblk m c 0 t (ix2 p col) = (V m c main_arg0 : S524288x64.Idx → BitVec 32) (ix2 (rowAt t p) col) := by
  obtain ⟨e0, e1, -⟩ := idx_facts t
  show (V m c main_arg0 : S524288x64.Idx → BitVec 32) (((cfg0.win 0).blk t).view.emb (ix2 p col)) = _
  refine congrArg _ (funext fun a => Fin.ext ?_)
  match a with
  | ⟨0, _⟩ => show win0_0.index t (0 : Fin 2) * 8192 + 1 * p.val = t.val * 8192 + p.val; omega
  | ⟨1, _⟩ => show win0_0.index t (1 : Fin 2) * 64 + 1 * col.val = col.val; omega

/-- The query-token block at point t is rows 8192 t … of the query column. -/
theorem blk1_apply (c : Dev nD) (t : Fin cfg0.N) (p : Fin 8192) :
    iblk m c 1 t (ix2 p (0 : Fin 1)) = (V m c main_v0 : S524288x1.Idx → BitVec 32) (ix2 (rowAt t p) (0 : Fin 1)) := by
  obtain ⟨-, -, e0, e1, -⟩ := idx_facts t
  show (V m c main_v0 : S524288x1.Idx → BitVec 32) (((cfg0.win 1).blk t).view.emb (ix2 p (0 : Fin 1))) = _
  refine congrArg _ (funext fun a => Fin.ext ?_)
  match a with
  | ⟨0, _⟩ => show win0_1.index t (0 : Fin 2) * 8192 + 1 * p.val = t.val * 8192 + p.val; omega
  | ⟨1, _⟩ => show win0_1.index t (1 : Fin 2) * 1 + 1 * 0 = 0; omega

/-- The query's table is read whole at every point. -/
theorem blk2_apply (c : Dev nD) (t : Fin cfg0.N) (v : Fin 128) (k : Fin 64) :
    iblk m c 2 t (ix2 v k) = (V m c main_v6 : S128x64.Idx → EReal) (ix2 v k) := by
  obtain ⟨-, -, -, -, e0, e1, -⟩ := idx_facts t
  show (V m c main_v6 : S128x64.Idx → EReal) (((cfg0.win 2).blk t).view.emb (ix2 v k)) = _
  refine congrArg _ (funext fun a => Fin.ext ?_)
  match a with
  | ⟨0, _⟩ => show win0_2.index t (0 : Fin 2) * 128 + 1 * v.val = v.val; omega
  | ⟨1, _⟩ => show win0_2.index t (1 : Fin 2) * 64 + 1 * k.val = k.val; omega

/-- The window's table is read whole at every point. -/
theorem blk3_apply (c : Dev nD) (t : Fin cfg0.N) (v : Fin 128) (k : Fin 64) :
    iblk m c 3 t (ix2 v k) = (V m c main_v10 : S128x64.Idx → EReal) (ix2 v k) := by
  obtain ⟨-, -, -, -, -, -, e0, e1, -⟩ := idx_facts t
  show (V m c main_v10 : S128x64.Idx → EReal) (((cfg0.win 3).blk t).view.emb (ix2 v k)) = _
  refine congrArg _ (funext fun a => Fin.ext ?_)
  match a with
  | ⟨0, _⟩ => show win0_3.index t (0 : Fin 2) * 128 + 1 * v.val = v.val; omega
  | ⟨1, _⟩ => show win0_3.index t (1 : Fin 2) * 64 + 1 * k.val = k.val; omega

/-- The first bias row is read whole at every point. -/
theorem blk4_apply (c : Dev nD) (t : Fin cfg0.N) (k : Fin 64) :
    iblk m c 4 t (ix2 (0 : Fin 1) k) = (V m c main_v13 : S1x64.Idx → EReal) (ix2 (0 : Fin 1) k) := by
  obtain ⟨-, -, -, -, -, -, -, -, e0, e1, -⟩ := idx_facts t
  show (V m c main_v13 : S1x64.Idx → EReal) (((cfg0.win 4).blk t).view.emb (ix2 (0 : Fin 1) k)) = _
  refine congrArg _ (funext fun a => Fin.ext ?_)
  match a with
  | ⟨0, _⟩ => show win0_4.index t (0 : Fin 2) * 1 + 1 * 0 = 0; omega
  | ⟨1, _⟩ => show win0_4.index t (1 : Fin 2) * 64 + 1 * k.val = k.val; omega

/-- The transposed second layer is read whole at every point. -/
theorem blk5_apply (c : Dev nD) (t : Fin cfg0.N) (k j : Fin 64) :
    iblk m c 5 t (ix2 k j) = (V m c main_v12 : S64x64.Idx → EReal) (ix2 k j) := by
  obtain ⟨-, -, -, -, -, -, -, -, -, -, e0, e1, -⟩ := idx_facts t
  show (V m c main_v12 : S64x64.Idx → EReal) (((cfg0.win 5).blk t).view.emb (ix2 k j)) = _
  refine congrArg _ (funext fun a => Fin.ext ?_)
  match a with
  | ⟨0, _⟩ => show win0_5.index t (0 : Fin 2) * 64 + 1 * k.val = k.val; omega
  | ⟨1, _⟩ => show win0_5.index t (1 : Fin 2) * 64 + 1 * j.val = j.val; omega

/-- The second bias row is read whole at every point. -/
theorem blk6_apply (c : Dev nD) (t : Fin cfg0.N) (j : Fin 64) :
    iblk m c 6 t (ix2 (0 : Fin 1) j) = (V m c main_v14 : S1x64.Idx → EReal) (ix2 (0 : Fin 1) j) := by
  obtain ⟨-, -, -, -, -, -, -, -, -, -, -, -, e0, e1, -⟩ := idx_facts t
  show (V m c main_v14 : S1x64.Idx → EReal) (((cfg0.win 6).blk t).view.emb (ix2 (0 : Fin 1) j)) = _
  refine congrArg _ (funext fun a => Fin.ext ?_)
  match a with
  | ⟨0, _⟩ => show win0_6.index t (0 : Fin 2) * 1 + 1 * 0 = 0; omega
  | ⟨1, _⟩ => show win0_6.index t (1 : Fin 2) * 64 + 1 * j.val = j.val; omega

/-- The output block at any of its indices, from the input blocks. -/
theorem out_at (x0 : Vec Ideal S8192x64 .i32) (x1 : Vec Ideal S8192x1 .i32) (x2 x3 : Vec Ideal S128x64 .bf16)
    (x4 : Vec Ideal S1x64 .f32) (x5 : Vec Ideal S64x64 .bf16) (x6 : Vec Ideal S1x64 .f32) (y : S8192x64.Idx) :
    out0_7 x0 x1 x2 x3 x4 x5 x6 y
      = kOut (x1 (ix2 (y 0) (0 : Fin 1))) (fun n => x0 (ix2 (y 0) (winCol n))) (fun v k => x2 (ix2 v k)) (fun v k => x3 (ix2 v k))
          (fun k => x4 (ix2 (0 : Fin 1) k)) (fun k j => x5 (ix2 k j)) (fun j => x6 (ix2 (0 : Fin 1) j)) (y 1) := by
  obtain ⟨p, q, rfl⟩ : ∃ (p : Fin 8192) (q : Fin 64), y = ix2 p q := ⟨y 0, y 1, eq_ix2 y⟩
  exact Cert.KernelIdeal.Payload.out_apply x0 x1 x2 x3 x4 x5 x6 p q

/-- WHAT POINT t WRITES BACK is block t of `GV`. -/
theorem flushed_eq (c : Dev nD) (t : Fin cfg0.N) :
    (dats m 0 c).flushed 7 t = ((cfg0.win 7).blk t).view.read (Elt Ideal) (GV m c) := by
  rw [Cert.KernelIdeal.Value.flushed7]
  obtain ⟨-, -, -, -, -, -, -, -, -, -, -, -, -, -, e0, e1⟩ := idx_facts t
  funext y
  show out0_7 (iblk m c 0 t) (iblk m c 1 t) (iblk m c 2 t) (iblk m c 3 t) (iblk m c 4 t) (iblk m c 5 t) (iblk m c 6 t) y
    = GV m c (((cfg0.win 7).blk t).view.emb y)
  rw [out_at]
  simp only [blk0_apply, blk1_apply, blk2_apply, blk3_apply, blk4_apply, blk5_apply, blk6_apply]
  have hr : (((cfg0.win 7).blk t).view.emb y) 0 = rowAt t (y 0) := Fin.ext (by
    show win0_7.index t (0 : Fin 2) * 8192 + 1 * (y 0).val = t.val * 8192 + (y 0).val; omega)
  have hc : (((cfg0.win 7).blk t).view.emb y) 1 = y 1 := Fin.ext (by
    show win0_7.index t (1 : Fin 2) * 64 + 1 * (y 1).val = (y 1).val; omega)
  unfold GV
  rw [hr, hc, blk1_apply m c t (y 0)]
  simp only [blk0_apply m c t (y 0)]

/-- An index of the output is in point t's block iff each coordinate is in the block's range on its axis. -/
theorem mem_blk (t : Fin cfg0.N) (i : S524288x64.Idx) :
    i ∈ ((cfg0.win 7).blk t).view.set ↔ ∀ a : Fin 2, win0_7.index t a * S8192x64.size a ≤ (i a).val ∧ (i a).val < win0_7.index t a * S8192x64.size a + S8192x64.size a := by
  show i ∈ ((View.whole main_v15).slice (win0_7.rect t)).set ↔ _
  rw [View.set_slice_whole, Rect.mem_set_unit]
  exact Iff.rfl

/-- Every row is in the block of the point its number divided by 8192 names. -/
theorem cover (i : S524288x64.Idx) : ∃ t : Fin cfg0.N, (cfg0.win 7).flush t = true ∧ i ∈ ((cfg0.win 7).blk t).view.set := by
  have hi0 : (i 0).val < 524288 := (i 0).isLt
  have hi1 : (i 1).val < 64 := (i 1).isLt
  have hN := N64
  refine ⟨⟨(i 0).val / 8192, by omega⟩, flush0_7 _, ?_⟩
  obtain ⟨-, -, -, -, -, -, -, -, -, -, -, -, -, -, e0, e1⟩ := idx_facts ⟨(i 0).val / 8192, by omega⟩
  rw [mem_blk]
  intro a
  match a with
  | ⟨0, _⟩ =>
    show win0_7.index _ (0 : Fin 2) * 8192 ≤ (i 0).val ∧ (i 0).val < win0_7.index _ (0 : Fin 2) * 8192 + 8192
    rw [e0]
    show (i 0).val / 8192 * 8192 ≤ (i 0).val ∧ (i 0).val < (i 0).val / 8192 * 8192 + 8192
    omega
  | ⟨1, _⟩ =>
    show win0_7.index _ (1 : Fin 2) * 64 ≤ (i 1).val ∧ (i 1).val < win0_7.index _ (1 : Fin 2) * 64 + 64
    rw [e1]
    omega

/-- THE ARRAY after the run is `GV`. -/
theorem final (c : Dev nD) : (dats m 0 c).arrAt 7 cfg0.N = GV m c :=
  (dats m 0 c).arrAt_eq_of_cover 7 (GV m c) (fun t _ => flushed_eq m c t) cover

end Cert.KernelIdeal.Blocks

end
-- ==== Proof.HostTables.lean ====
/-
  The arrays the kernel's windows stage, as the region finds them, read at an index: the query tokens as a column,
  the two 128-row tables, the transposed second layer and the two biases as rows — each a function of the
  program's arguments.
-/
import proofs.«403954_j77068893160211_3_alg».proof.Proof.Gen.KernelIdeal.Frame
import proofs.«403954_j77068893160211_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostTables

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ)

/-! ## The host's `dot_general` of a 128 × 64 by a 64 × 64 matrix, read at an index -/

theorem dot_lhs_0 (i : S128x64.Idx) (q : dot_S128x64_S64x64_S128x64_1_0_0_1_n_n.contr.Idx) :
    (dot_S128x64_S64x64_S128x64_1_0_0_1_n_n.lhsIdx i q 0).val = (i 0).val := by
  unfold DotDims.lhsIdx
  rw [dif_neg (show ¬(0 : Fin S128x64.rank) ∈ dot_S128x64_S64x64_S128x64_1_0_0_1_n_n.lhsBatch by decide), dif_pos (show (0 : Fin S128x64.rank) ∈ dot_S128x64_S64x64_S128x64_1_0_0_1_n_n.lhsNonContracting by decide)]
  rfl
theorem dot_lhs_1 (i : S128x64.Idx) (q : dot_S128x64_S64x64_S128x64_1_0_0_1_n_n.contr.Idx) :
    (dot_S128x64_S64x64_S128x64_1_0_0_1_n_n.lhsIdx i q 1).val = (q ⟨0, by decide⟩).val :=
  dot_S128x64_S64x64_S128x64_1_0_0_1_n_n.lhsIdx_val_of_single rfl i q
theorem dot_rhs_0 (i : S128x64.Idx) (q : dot_S128x64_S64x64_S128x64_1_0_0_1_n_n.contr.Idx) :
    (dot_S128x64_S64x64_S128x64_1_0_0_1_n_n.rhsIdx i q 0).val = (q ⟨0, by decide⟩).val :=
  dot_S128x64_S64x64_S128x64_1_0_0_1_n_n.rhsIdx_val_of_single rfl i q
theorem dot_rhs_1 (i : S128x64.Idx) (q : dot_S128x64_S64x64_S128x64_1_0_0_1_n_n.contr.Idx) :
    (dot_S128x64_S64x64_S128x64_1_0_0_1_n_n.rhsIdx i q 1).val = (i 1).val := by
  unfold DotDims.rhsIdx
  rw [dif_neg (show ¬(1 : Fin S64x64.rank) ∈ dot_S128x64_S64x64_S128x64_1_0_0_1_n_n.rhsBatch by decide), dif_pos (show (1 : Fin S64x64.rank) ∈ dot_S128x64_S64x64_S128x64_1_0_0_1_n_n.rhsNonContracting by decide)]
  rfl

/-- Entry `(v, k)` of the product is the sum over the shared axis. -/
theorem dot_apply (L : FVec Ideal S128x64 .f32) (R : FVec Ideal S64x64 .f32) (v : Fin 128) (k : Fin 64) :
    (Host.dotGeneral (F := Ideal) dot_S128x64_S64x64_S128x64_1_0_0_1_n_n none L R : FVec Ideal S128x64 .f32) (ix2 v k)
      = ∑ k' : Fin 64, L (ix2 v k') * R (ix2 k' k) := by
  simp only [Host.dotGeneral]
  rw [Ideal.dotGeneral_apply, ← Equiv.sum_comp (ValueIdx.contrEquiv1 dot_S128x64_S64x64_S128x64_1_0_0_1_n_n 64 rfl rfl).symm]
  refine Finset.sum_congr rfl fun k' _ => ?_
  have hk := ValueIdx.contrEquiv1_symm_val dot_S128x64_S64x64_S128x64_1_0_0_1_n_n 64 rfl rfl k'
  have el : dot_S128x64_S64x64_S128x64_1_0_0_1_n_n.lhsIdx (ix2 v k) ((ValueIdx.contrEquiv1 dot_S128x64_S64x64_S128x64_1_0_0_1_n_n 64 rfl rfl).symm k') = ix2 v k' := funext fun a => Fin.ext (by
    match a with
    | ⟨0, _⟩ => exact dot_lhs_0 _ _
    | ⟨1, _⟩ => exact (dot_lhs_1 _ _).trans hk)
  have er : dot_S128x64_S64x64_S128x64_1_0_0_1_n_n.rhsIdx (ix2 v k) ((ValueIdx.contrEquiv1 dot_S128x64_S64x64_S128x64_1_0_0_1_n_n 64 rfl rfl).symm k') = ix2 k' k := funext fun a => Fin.ext (by
    match a with
    | ⟨0, _⟩ => exact (dot_rhs_0 _ _).trans hk
    | ⟨1, _⟩ => exact dot_rhs_1 _ _)
  rw [el, er]

/-! ## The embedding table padded to 128 rows -/

/-- The table padded below with the zero the program makes: the integer zero converted. -/
abbrev padT (E : FVec Ideal S66x64 .f32) : FVec Ideal S128x64 .f32 :=
  pad S128x64 ![0, 0] ![62, 0] ![0, 0] E (sitofp (F := Ideal) .f32 (constantI S_ 32 0#32) : FVec Ideal S_ .f32)
    pads_S66x64_S128x64_0620_000 h_S_

/-- Rows below 66 are the table's, the rest are zero. -/
theorem padT_apply (E : FVec Ideal S66x64 .f32) (v : Fin 128) (k' : Fin 64) :
    padT E (ix2 v k') = padE (fun a b => E (ix2 a b)) v k' := by
  show pad S128x64 ![0, 0] ![62, 0] ![0, 0] E (sitofp (F := Ideal) .f32 (constantI S_ 32 0#32) : FVec Ideal S_ .f32)
      pads_S66x64_S128x64_0620_000 h_S_ (ix2 v k') = if h : v.val < 66 then E (ix2 ⟨v.val, h⟩ k') else 0
  unfold pad
  by_cases h : v.val < 66
  · rw [dif_pos h, dif_pos (fun a => match a with
      | ⟨0, _⟩ => ⟨Nat.zero_le _, Nat.mod_one _, by show (v.val - 0) / (0 + 1) < 66; omega⟩
      | ⟨1, _⟩ => ⟨Nat.zero_le _, Nat.mod_one _, by show (k'.val - 0) / (0 + 1) < 64; omega⟩)]
    refine congrArg E (funext fun a => Fin.ext ?_)
    match a with
    | ⟨0, _⟩ => show (v.val - 0) / (0 + 1) = v.val; omega
    | ⟨1, _⟩ => show (k'.val - 0) / (0 + 1) = k'.val; omega
  · rw [dif_neg h, dif_neg (fun hin => h (by
      have := (hin 0).2.2
      change (v.val - 0) / (0 + 1) < 66 at this
      omega))]
    show ((((0#32 : BitVec 32).toInt : ℝ)) : EReal) = 0
    simp

/-! ## The two halves of the first layer, transposed -/

/-- Rows `0 … 63` of the transposed first layer. -/
abbrev w1lo (W : FVec Ideal S64x128 .f32) : FVec Ideal S64x64 .f32 :=
  extractStridedSlice S64x64 ![0, 0] (transpose S128x64 [1, 0] W transposes_S64x128_S128x64_1_0) slices_S128x64_S64x64_0_0

/-- Rows `64 … 127` of the transposed first layer. -/
abbrev w1hi (W : FVec Ideal S64x128 .f32) : FVec Ideal S64x64 .f32 :=
  extractStridedSlice S64x64 ![64, 0] (transpose S128x64 [1, 0] W transposes_S64x128_S128x64_1_0) slices_S128x64_S64x64_64_0

/-- Entry `(k', k)` of the first half is the layer's `(k, k')`. -/
theorem w1lo_apply (W : FVec Ideal S64x128 .f32) (k' k : Fin 64) :
    w1lo W (ix2 k' k) = W (ix2 k (Fin.castAdd 64 k')) := by
  refine (extractStridedSlice_apply _ _ _ _ (ix2 (Fin.castAdd 64 k') k) (fun a => match a with
    | ⟨0, _⟩ => by show k'.val = 0 + k'.val; omega
    | ⟨1, _⟩ => by show k.val = 0 + k.val; omega)).trans ?_
  exact transpose_ix2_apply _ _ _ _

/-- Entry `(k', k)` of the second half is the layer's `(k, 64 + k')`. -/
theorem w1hi_apply (W : FVec Ideal S64x128 .f32) (k' k : Fin 64) :
    w1hi W (ix2 k' k) = W (ix2 k (Fin.natAdd 64 k')) := by
  refine (extractStridedSlice_apply _ _ _ _ (ix2 (Fin.natAdd 64 k') k) (fun a => match a with
    | ⟨0, _⟩ => by show 64 + k'.val = 64 + k'.val; rfl
    | ⟨1, _⟩ => by show k.val = 0 + k.val; omega)).trans ?_
  exact transpose_ix2_apply _ _ _ _

/-! ## The six arrays -/

/-- The query tokens as the kernel's column: row `r` holds row `r`'s query token. -/
theorem q32_apply (c : Dev nD) (r : Fin 524288) :
    (V m c main_v0 : S524288x1.Idx → BitVec 32) (ix2 r (0 : Fin 1)) = qTok (m ((c : Thread nD τ).loc main_arg1)) r := by
  have e : (V m c main_v0 : S524288x1.Idx → BitVec 32)
      = shapeCast S524288x1 (m ((c : Thread nD τ).loc main_arg1) : S524288.Idx → BitVec 32) shapeCasts_S524288_S524288x1 := by
    dsimp only [Gen.V]
    simp only [Gen.hostOps0, Gen.hostOps0_1, Gen.hostOps0_2, List.flatten_cons, List.flatten_nil, List.append_nil, List.cons_append, List.nil_append]
    after_results
    rfl
  rw [e]
  refine shapeCast_apply _ _ _ (ix1 r) ?_
  rw [Shape.rowMajor_val_two, Shape.rowMajor_val_one]
  show r.val = r.val * 1 + 0
  omega

/-- The query's table is `gqE` of the embedding table and the first layer. -/
theorem gq_apply (c : Dev nD) (v : Fin 128) (k : Fin 64) :
    (V m c main_v6 : S128x64.Idx → EReal) (ix2 v k)
      = gqE (matE (m ((c : Thread nD τ).loc main_arg2))) (matW1 (m ((c : Thread nD τ).loc main_arg3))) v k := by
  have e : (V m c main_v6 : S128x64.Idx → EReal)
      = (truncf (F := Ideal) .bf16
          (Host.dotGeneral (F := Ideal) dot_S128x64_S64x64_S128x64_1_0_0_1_n_n none
            (padT (m ((c : Thread nD τ).loc main_arg2)))
            (w1lo (m ((c : Thread nD τ).loc main_arg3))) : FVec Ideal S128x64 .f32)
          bitsLt_bf16_f32 : FVec Ideal S128x64 .bf16) := by
    dsimp only [Gen.V]
    simp only [Gen.hostOps0, Gen.hostOps0_1, Gen.hostOps0_2, List.flatten_cons, List.flatten_nil, List.append_nil, List.cons_append, List.nil_append]
    after_results
    rfl
  rw [e]
  refine (dot_apply _ _ v k).trans ?_
  show _ = ∑ k' : Fin 64, padE (matE (m ((c : Thread nD τ).loc main_arg2))) v k' * matW1 (m ((c : Thread nD τ).loc main_arg3)) k (Fin.castAdd 64 k')
  refine Finset.sum_congr rfl fun k' _ => ?_
  rw [padT_apply, w1lo_apply]
  rfl

/-- The window's table is `gmE` of the embedding table and the first layer. -/
theorem gm_apply (c : Dev nD) (v : Fin 128) (k : Fin 64) :
    (V m c main_v10 : S128x64.Idx → EReal) (ix2 v k)
      = gmE (matE (m ((c : Thread nD τ).loc main_arg2))) (matW1 (m ((c : Thread nD τ).loc main_arg3))) v k := by
  have e : (V m c main_v10 : S128x64.Idx → EReal)
      = (truncf (F := Ideal) .bf16
          (Host.dotGeneral (F := Ideal) dot_S128x64_S64x64_S128x64_1_0_0_1_n_n none
            (mulf (padT (m ((c : Thread nD τ).loc main_arg2)))
              (broadcastInDim S128x64 ![] bcast_S_S128x64 (constant (F := Ideal) S_ .f32 0x3E000000#32)))
            (w1hi (m ((c : Thread nD τ).loc main_arg3))) : FVec Ideal S128x64 .f32)
          bitsLt_bf16_f32 : FVec Ideal S128x64 .bf16) := by
    dsimp only [Gen.V]
    simp only [Gen.hostOps0, Gen.hostOps0_1, Gen.hostOps0_2, List.flatten_cons, List.flatten_nil, List.append_nil, List.cons_append, List.nil_append]
    after_results
    rfl
  rw [e]
  refine (dot_apply _ _ v k).trans ?_
  show _ = ∑ k' : Fin 64, (padE (matE (m ((c : Thread nD τ).loc main_arg2))) v k' * eighth) * matW1 (m ((c : Thread nD τ).loc main_arg3)) k (Fin.natAdd 64 k')
  refine Finset.sum_congr rfl fun k' _ => ?_
  rw [w1hi_apply, ValueIdx.mulf_apply, padT_apply]
  rfl

/-- The first bias as a row. -/
theorem b1r_apply (c : Dev nD) (k : Fin 64) :
    (V m c main_v13 : S1x64.Idx → EReal) (ix2 (0 : Fin 1) k) = vecB (m ((c : Thread nD τ).loc main_arg4)) k := by
  have e : (V m c main_v13 : S1x64.Idx → EReal)
      = shapeCast S1x64 (m ((c : Thread nD τ).loc main_arg4) : S64.Idx → EReal) shapeCasts_S64_S1x64 := by
    dsimp only [Gen.V]
    simp only [Gen.hostOps0, Gen.hostOps0_1, Gen.hostOps0_2, List.flatten_cons, List.flatten_nil, List.append_nil, List.cons_append, List.nil_append]
    after_results
    rfl
  rw [e]
  exact shapeCast_a_1a_apply _ _ _ _

/-- The second layer transposed. -/
theorem w2t_apply (c : Dev nD) (k j : Fin 64) :
    (V m c main_v12 : S64x64.Idx → EReal) (ix2 k j) = matW2 (m ((c : Thread nD τ).loc main_arg5)) j k := by
  have e : (V m c main_v12 : S64x64.Idx → EReal)
      = (truncf (F := Ideal) .bf16 (transpose S64x64 [1, 0] (m ((c : Thread nD τ).loc main_arg5) : S64x64.Idx → EReal) transposes_S64x64_S64x64_1_0 : FVec Ideal S64x64 .f32) bitsLt_bf16_f32 : FVec Ideal S64x64 .bf16) := by
    dsimp only [Gen.V]
    simp only [Gen.hostOps0, Gen.hostOps0_1, Gen.hostOps0_2, List.flatten_cons, List.flatten_nil, List.append_nil, List.cons_append, List.nil_append]
    after_results
  rw [e]
  exact transpose_ix2_apply _ _ _ _

/-- The second bias as a row. -/
theorem b2r_apply (c : Dev nD) (j : Fin 64) :
    (V m c main_v14 : S1x64.Idx → EReal) (ix2 (0 : Fin 1) j) = vecB (m ((c : Thread nD τ).loc main_arg6)) j := by
  have e : (V m c main_v14 : S1x64.Idx → EReal)
      = shapeCast S1x64 (m ((c : Thread nD τ).loc main_arg6) : S64.Idx → EReal) shapeCasts_S64_S1x64 := by
    dsimp only [Gen.V]
    simp only [Gen.hostOps0, Gen.hostOps0_1, Gen.hostOps0_2, List.flatten_cons, List.flatten_nil, List.append_nil, List.cons_append, List.nil_append]
    after_results
    rfl
  rw [e]
  exact shapeCast_a_1a_apply _ _ _ _

end Cert.KernelIdeal.HostTables

end
-- ==== Proof.KernelValue.lean ====
/-
  The kernel's run with its result named: the output array is `Spec.GK` of the arguments — the one function of
  the arrays the region finds, with each of those arrays read back as what the host operations made of the
  arguments (the query tokens as a column, the two folded tables, the transposed second layer, the bias rows).
-/
import proofs.«403954_j77068893160211_3_alg».proof.Proof.Blocks
import proofs.«403954_j77068893160211_3_alg».proof.Proof.HostTables

noncomputable section

namespace Cert.KernelIdeal.KValue

open Cert.KernelIdeal Cert.KernelIdeal.Gen Idealize.ShloMosaic Idealize.ShloMosaic.TcCoe Idealize.SL.Sem
open Idealize.ShloMosaic.ValueIdx Cert.Spec Cert.KernelIdeal.HostTables Cert.KernelIdeal.Blocks

variable (m : (ℓ : Loc nD τ sig) → Buf (Elt Ideal) ℓ) (ρ : Dev nD → PrngReg)

/-- The output array after the run, the kernel's way, as a function of the arguments. -/
abbrev KG (c : Dev nD) : S524288x64.Idx → EReal :=
  GK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The function of the region's arrays is the function of the arguments. -/
theorem GV_eq (c : Dev nD) : GV m c = KG m c := by
  funext i
  obtain ⟨r, j, rfl⟩ : ∃ (r : Fin 524288) (j : Fin 64), i = ix2 r j := ⟨i 0, i 1, eq_ix2 i⟩
  show kOut ((V m c main_v0 : S524288x1.Idx → BitVec 32) (ix2 r (0 : Fin 1)))
      (fun n => (V m c main_arg0 : S524288x64.Idx → BitVec 32) (ix2 r (winCol n)))
      (fun v k => (V m c main_v6 : S128x64.Idx → EReal) (ix2 v k))
      (fun v k => (V m c main_v10 : S128x64.Idx → EReal) (ix2 v k))
      (fun k => (V m c main_v13 : S1x64.Idx → EReal) (ix2 (0 : Fin 1) k))
      (fun k j => (V m c main_v12 : S64x64.Idx → EReal) (ix2 k j))
      (fun j => (V m c main_v14 : S1x64.Idx → EReal) (ix2 (0 : Fin 1) j)) j
    = kOut (qTok (m ((c : Thread nD τ).loc main_arg1)) r) (wTok (m ((c : Thread nD τ).loc main_arg0)) r)
      (gqE (matE (m ((c : Thread nD τ).loc main_arg2))) (matW1 (m ((c : Thread nD τ).loc main_arg3))))
      (gmE (matE (m ((c : Thread nD τ).loc main_arg2))) (matW1 (m ((c : Thread nD τ).loc main_arg3))))
      (vecB (m ((c : Thread nD τ).loc main_arg4))) (fun k j => matW2 (m ((c : Thread nD τ).loc main_arg5)) j k)
      (vecB (m ((c : Thread nD τ).loc main_arg6))) j
  have e0 : (fun n => (V m c main_arg0 : S524288x64.Idx → BitVec 32) (ix2 r (winCol n))) = wTok (m ((c : Thread nD τ).loc main_arg0)) r := by
    rw [V_main_arg0]; rfl
  have e2 : (fun v k => (V m c main_v6 : S128x64.Idx → EReal) (ix2 v k))
      = gqE (matE (m ((c : Thread nD τ).loc main_arg2))) (matW1 (m ((c : Thread nD τ).loc main_arg3))) :=
    funext fun v => funext fun k => gq_apply m c v k
  have e3 : (fun v k => (V m c main_v10 : S128x64.Idx → EReal) (ix2 v k))
      = gmE (matE (m ((c : Thread nD τ).loc main_arg2))) (matW1 (m ((c : Thread nD τ).loc main_arg3))) :=
    funext fun v => funext fun k => gm_apply m c v k
  have e4 : (fun k => (V m c main_v13 : S1x64.Idx → EReal) (ix2 (0 : Fin 1) k)) = vecB (m ((c : Thread nD τ).loc main_arg4)) :=
    funext fun k => b1r_apply m c k
  have e5 : (fun k j => (V m c main_v12 : S64x64.Idx → EReal) (ix2 k j)) = fun k j => matW2 (m ((c : Thread nD τ).loc main_arg5)) j k :=
    funext fun k => funext fun j => w2t_apply m c k j
  have e6 : (fun j => (V m c main_v14 : S1x64.Idx → EReal) (ix2 (0 : Fin 1) j)) = vecB (m ((c : Thread nD τ).loc main_arg6)) :=
    funext fun j => b2r_apply m c j
  rw [q32_apply m c r, e0, e2, e3, e4, e5, e6]

theorem final (c : Dev nD) : (dats m 0 c).arrAt 7 cfg0.N = KG m c :=
  (Blocks.final m c).trans (GV_eq m c)

/-- The kernel's run with its result named. -/
theorem run : θ_run defs (onTc (τ := τ) (main (F := Ideal))) ⟨m, fun _ => 0, ρ⟩ fun r => ∀ c : Dev nD,
      r.2.mem ((c : Thread nD τ).loc main_v15) = KG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.KValue

end
-- ==== Proof.lean ====
/-
  The certificate: a 64-token sequence model's last step — embed the query token and the mean of the eight
  window tokens, one hidden layer with a rectifier, one output layer — computed by a kernel that turns the
  embedding lookups into one-hot products with tables folded into the first layer, against the plain lookup.

  The three frames are the generated ones (the reference's is its generated run with the result dropped). Nothing
  was rewritten when the kernel was idealized, so `preserves` is trivial. For `algebraic`: the kernel's run ends with
  the output at `Spec.GK` of the arguments (KernelValue), the reference's at `Spec.G` (RefRead, using that the
  tokens are row numbers of the table), and the two are one array when the embedding table and the first layer hold
  real numbers and the tokens are in range (Algebra) — both facts read off the precondition (Pre).
-/
import proofs.«403954_j77068893160211_3_alg».proof.Defs
import proofs.«403954_j77068893160211_3_alg».proof.Proof.Gen.Kernel
import proofs.«403954_j77068893160211_3_alg».proof.Proof.Gen.Kernel.Frame
import proofs.«403954_j77068893160211_3_alg».proof.Proof.Gen.KernelIdeal
import proofs.«403954_j77068893160211_3_alg».proof.Proof.Gen.KernelIdeal.Frame
import proofs.«403954_j77068893160211_3_alg».proof.Proof.Gen.KernelIdeal.Value
import proofs.«403954_j77068893160211_3_alg».proof.Proof.Gen.ReferenceIdeal
import proofs.«403954_j77068893160211_3_alg».proof.Proof.Gen.ReferenceIdeal.Run
import proofs.«403954_j77068893160211_3_alg».proof.Proof.Gen.ReferenceIdeal.Read
import proofs.«403954_j77068893160211_3_alg».proof.Proof.Gen.Pre_finite_inputs
import proofs.«403954_j77068893160211_3_alg».proof.Proof.Spec
import proofs.«403954_j77068893160211_3_alg».proof.Proof.Algebra
import proofs.«403954_j77068893160211_3_alg».proof.Proof.Pre
import proofs.«403954_j77068893160211_3_alg».proof.Proof.RefRead
import proofs.«403954_j77068893160211_3_alg».proof.Proof.KernelValue
import Idealize.ShloMosaic.Adequacy
import Idealize.ShloMosaic.Init

noncomputable section

namespace Cert.Proof

open Idealize.ShloMosaic Idealize.ShloMosaic.TcCoe Idealize.SL.Sem

section
variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the output at `Spec.G` of the kernel's arguments. -/
theorem algebraic : Cert.algebraic_KernelIdeal_ReferenceIdeal := by
  intro m ρ m' ρ' hpre hagree
  have P : ∀ c : Dev Cert.KernelIdeal.nD, Cert.Spec.Pre
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)) :=
    fun c => Cert.PreRead.pre_of_fn _ _ _ _ _ _ _ (hpre c)
  refine ⟨fun c => Cert.Spec.G
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)), ?_, ?_⟩
  · exact (θ_run Cert.KernelIdeal.defs _ _).mono
      (fun r h c => ⟨(h c).1.trans (Cert.Spec.GK_eq_G _ _ _ _ _ _ _ (P c)), (h c).2⟩) (Cert.KernelIdeal.KValue.run m ρ)
  · refine (θ_run Cert.ReferenceIdeal.defs _ _).mono (fun r h c => ⟨?_, (h c).2⟩)
      (Cert.ReferenceIdeal.Value.run (F := Ideal) m' ρ')
    obtain ⟨a0, a1, a2, a3, a4, a5, a6⟩ := hagree c
    rw [(h c).1, Cert.ReferenceIdeal.Read.val_main_v29_eq, a0, a1, a2, a3, a4, a5, a6]
    exact Cert.ReferenceIdeal.RefValue.ref_eq_G _ _ _ _ _ _ _ (P c).rangeW (P c).rangeQ

end

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
